-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8 : Shape := ⟨2, ![8192, 8]⟩
abbrev S8x3 : Shape := ⟨2, ![8, 3]⟩
abbrev S6561x9 : Shape := ⟨2, ![6561, 9]⟩
abbrev S6561x8 : Shape := ⟨2, ![6561, 8]⟩
abbrev S_ : Shape := ⟨0, ![]⟩

class Facts : Prop where
  bcast_S_S8192x8 : S_.BroadcastsInDim S8192x8 (![] : Fin 0 → Fin S8192x8.rank)
  reducesTo_S8192x8_S_d0_1 : S8192x8.ReducesTo [0, 1] S_
  h_S_ : 0 < S_.numel
  bcast_S_S8x3 : S_.BroadcastsInDim S8x3 (![] : Fin 0 → Fin S8x3.rank)
  reducesTo_S8x3_S_d0_1 : S8x3.ReducesTo [0, 1] S_
  bcast_S_S6561x9 : S_.BroadcastsInDim S6561x9 (![] : Fin 0 → Fin S6561x9.rank)
  reducesTo_S6561x9_S_d0_1 : S6561x9.ReducesTo [0, 1] S_
  bcast_S_S6561x8 : S_.BroadcastsInDim S6561x8 (![] : Fin 0 → Fin S6561x8.rank)
  reducesTo_S6561x8_S_d0_1 : S6561x8.ReducesTo [0, 1] S_

variable [Facts]

def fn_part1 {F : FTy → Type} [FloatOps F] (main_arg4 : IVec S6561x8 32) (main_v13 : IVec S_ 1) (main_v16 : IVec S6561x9 1) : IVec S_ 1 :=
  let main_c_5 : IVec S_ 1 := constantI S_ 1 1#1
  let main_v17 : IVec S_ 1 := (fun x v => Host.reduce IntOp.andi x v reducesTo_S6561x9_S_d0_1 h_S_) main_v16 main_c_5
  let main_v18 : IVec S_ 1 := andi main_v13 main_v17
  let main_c_6 : IVec S_ 32 := constantI S_ 32 0#32
  let main_v19 : IVec S6561x8 32 := broadcastInDim S6561x8 ![] bcast_S_S6561x8 main_c_6
  let main_v20 : IVec S6561x8 1 := cmpi .sge main_arg4 main_v19
  let main_c_7 : IVec S_ 32 := constantI S_ 32 3#32
  let main_v21 : IVec S6561x8 32 := broadcastInDim S6561x8 ![] bcast_S_S6561x8 main_c_7
  let main_v22 : IVec S6561x8 1 := cmpi .slt main_arg4 main_v21
  let main_v23 : IVec S6561x8 1 := andi main_v20 main_v22
  let main_c_8 : IVec S_ 1 := constantI S_ 1 1#1
  let main_v24 : IVec S_ 1 := (fun x v => Host.reduce IntOp.andi x v reducesTo_S6561x8_S_d0_1 h_S_) main_v23 main_c_8
  let main_v25 : IVec S_ 1 := andi main_v18 main_v24
  main_v25

def fn {F : FTy → Type} [FloatOps F] (main_arg0 : FVec F S8192x8 .f32) (main_arg1 : FVec F S8x3 .f32) (main_arg2 : FVec F S8x3 .f32) (main_arg3 : FVec F S6561x9 .f32) (main_arg4 : IVec S6561x8 32) : IVec S_ 1 :=
  let main_v0 : FVec F S8192x8 .f32 := Host.absf main_arg0
  let main_cst : FVec F S_ .f32 := constant S_ .f32 0x7F800000#32
  let main_v1 : FVec F S8192x8 .f32 := broadcastInDim S8192x8 ![] bcast_S_S8192x8 main_cst
  let main_v2 : IVec S8192x8 1 := cmpf .olt main_v0 main_v1
  let main_c : IVec S_ 1 := constantI S_ 1 1#1
  let main_v3 : IVec S_ 1 := (fun x v => Host.reduce IntOp.andi x v reducesTo_S8192x8_S_d0_1 h_S_) main_v2 main_c
  let main_v4 : FVec F S8x3 .f32 := Host.absf main_arg1
  let main_cst_0 : FVec F S_ .f32 := constant S_ .f32 0x7F800000#32
  let main_v5 : FVec F S8x3 .f32 := broadcastInDim S8x3 ![] bcast_S_S8x3 main_cst_0
  let main_v6 : IVec S8x3 1 := cmpf .olt main_v4 main_v5
  let main_c_1 : IVec S_ 1 := constantI S_ 1 1#1
  let main_v7 : IVec S_ 1 := (fun x v => Host.reduce IntOp.andi x v reducesTo_S8x3_S_d0_1 h_S_) main_v6 main_c_1
  let main_v8 : IVec S_ 1 := andi main_v3 main_v7
  let main_v9 : FVec F S8x3 .f32 := Host.absf main_arg2
  let main_cst_2 : FVec F S_ .f32 := constant S_ .f32 0x7F800000#32
  let main_v10 : FVec F S8x3 .f32 := broadcastInDim S8x3 ![] bcast_S_S8x3 main_cst_2
  let main_v11 : IVec S8x3 1 := cmpf .olt main_v9 main_v10
  let main_c_3 : IVec S_ 1 := constantI S_ 1 1#1
  let main_v12 : IVec S_ 1 := (fun x v => Host.reduce IntOp.andi x v reducesTo_S8x3_S_d0_1 h_S_) main_v11 main_c_3
  let main_v13 : IVec S_ 1 := andi main_v8 main_v12
  let main_v14 : FVec F S6561x9 .f32 := Host.absf main_arg3
  let main_cst_4 : FVec F S_ .f32 := constant S_ .f32 0x7F800000#32
  let main_v15 : FVec F S6561x9 .f32 := broadcastInDim S6561x9 ![] bcast_S_S6561x9 main_cst_4
  let main_v16 : IVec S6561x9 1 := cmpf .olt main_v14 main_v15
  fn_part1 (F := F) main_arg4 main_v13 main_v16
-- ==== Kernel.lean ====
abbrev S8192x8 : Shape := ⟨2, ![8192, 8]⟩
abbrev S8x3 : Shape := ⟨2, ![8, 3]⟩
abbrev S6561x9 : Shape := ⟨2, ![6561, 9]⟩
abbrev S6561x8 : Shape := ⟨2, ![6561, 8]⟩
abbrev S3 : Shape := ⟨1, ![3]⟩
abbrev S8x6561 : Shape := ⟨2, ![8, 6561]⟩
abbrev S8x1x6561 : Shape := ⟨3, ![8, 1, 6561]⟩
abbrev S1x3x1 : Shape := ⟨3, ![1, 3, 1]⟩
abbrev S8x3x6561 : Shape := ⟨3, ![8, 3, 6561]⟩
abbrev S24x6561 : Shape := ⟨2, ![24, 6561]⟩
abbrev S_ : Shape := ⟨0, ![]⟩
abbrev S24x6656 : Shape := ⟨2, ![24, 6656]⟩
abbrev S6561 : Shape := ⟨1, ![6561]⟩
abbrev S6656 : Shape := ⟨1, ![6656]⟩
abbrev S1x6656 : Shape := ⟨2, ![1, 6656]⟩
abbrev S8192x1 : Shape := ⟨2, ![8192, 1]⟩
abbrev S256x8 : Shape := ⟨2, ![256, 8]⟩
abbrev S256x1 : Shape := ⟨2, ![256, 1]⟩
abbrev S256x6656 : Shape := ⟨2, ![256, 6656]⟩
abbrev S1x1 : Shape := ⟨2, ![1, 1]⟩
abbrev S256 : Shape := ⟨1, ![256]⟩
abbrev S8192 : Shape := ⟨1, ![8192]⟩

abbrev nBuf : Space → Nat
  | .hbm => 25
  | .vmem => 8
  | .smem => 0
  | _ => 0

abbrev bufTy : (tb : Table) → Fin (tcTables nBuf tb) → BufTy
  | .hbm, ⟨0, _⟩ => ⟨S8192x8, .f32⟩
  | .hbm, ⟨1, _⟩ => ⟨S8x3, .f32⟩
  | .hbm, ⟨2, _⟩ => ⟨S8x3, .f32⟩
  | .hbm, ⟨3, _⟩ => ⟨S6561x9, .f32⟩
  | .hbm, ⟨4, _⟩ => ⟨S6561x8, .i32⟩
  | .hbm, ⟨5, _⟩ => ⟨S3, .i32⟩
  | .hbm, ⟨6, _⟩ => ⟨S8x6561, .i32⟩
  | .hbm, ⟨7, _⟩ => ⟨S8x1x6561, .i32⟩
  | .hbm, ⟨8, _⟩ => ⟨S1x3x1, .i32⟩
  | .hbm, ⟨9, _⟩ => ⟨S8x3x6561, .i32⟩
  | .hbm, ⟨10, _⟩ => ⟨S8x3x6561, .i32⟩
  | .hbm, ⟨11, _⟩ => ⟨S8x3x6561, .i1⟩
  | .hbm, ⟨12, _⟩ => ⟨S8x3x6561, .f32⟩
  | .hbm, ⟨13, _⟩ => ⟨S24x6561, .f32⟩
  | .hbm, ⟨14, _⟩ => ⟨S_, .i32⟩
  | .hbm, ⟨15, _⟩ => ⟨S_, .f32⟩
  | .hbm, ⟨16, _⟩ => ⟨S24x6656, .f32⟩
  | .hbm, ⟨17, _⟩ => ⟨S_, .f32⟩
  | .hbm, ⟨18, _⟩ => ⟨S6561, .f32⟩
  | .hbm, ⟨19, _⟩ => ⟨S_, .i32⟩
  | .hbm, ⟨20, _⟩ => ⟨S_, .f32⟩
  | .hbm, ⟨21, _⟩ => ⟨S6656, .f32⟩
  | .hbm, ⟨22, _⟩ => ⟨S1x6656, .f32⟩
  | .hbm, ⟨23, _⟩ => ⟨S8192x1, .f32⟩
  | .hbm, ⟨24, _⟩ => ⟨S8192, .f32⟩
  | .local _ .vmem, ⟨0, _⟩ => ⟨S256x8, .f32⟩
  | .local _ .vmem, ⟨1, _⟩ => ⟨S256x8, .f32⟩
  | .local _ .vmem, ⟨2, _⟩ => ⟨S8x3, .f32⟩
  | .local _ .vmem, ⟨3, _⟩ => ⟨S8x3, .f32⟩
  | .local _ .vmem, ⟨4, _⟩ => ⟨S24x6656, .f32⟩
  | .local _ .vmem, ⟨5, _⟩ => ⟨S1x6656, .f32⟩
  | .local _ .vmem, ⟨6, _⟩ => ⟨S256x1, .f32⟩
  | .local _ .vmem, ⟨7, _⟩ => ⟨S256x1, .f32⟩
  | _, _ => ⟨S8192x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_c_0 : Ref sig .tc := ⟨.hbm, 19, rfl⟩
abbrev main_call1_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S24x6656 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x6656 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S6561x8_S8x6561_1_0 : S6561x8.Transposes [1, 0] S8x6561
  bcast_S8x6561_S8x1x6561_0_2 : S8x6561.BroadcastsInDim S8x1x6561 (![0, 2] : Fin 2 → Fin S8x1x6561.rank)
  bcast_S3_S1x3x1_1 : S3.BroadcastsInDim S1x3x1 (![1] : Fin 1 → Fin S1x3x1.rank)
  bcast_S8x1x6561_S8x3x6561_0_1_2 : S8x1x6561.BroadcastsInDim S8x3x6561 (![0, 1, 2] : Fin 3 → Fin S8x3x6561.rank)
  bcast_S1x3x1_S8x3x6561_0_1_2 : S1x3x1.BroadcastsInDim S8x3x6561 (![0, 1, 2] : Fin 3 → Fin S8x3x6561.rank)
  shapeCasts_S8x3x6561_S24x6561 : S8x3x6561.ShapeCasts S24x6561
  pads_S24x6561_S24x6656_000_0950 : S24x6561.Pads (![0, 0] : Fin 2 → Nat) ![0, 95] ![0, 0] S24x6656
  h_S_ : 0 < S_.numel
  reducesTo_S6561x9_S6561_d1 : S6561x9.ReducesTo [1] S6561
  pads_S6561_S6656_0950 : S6561.Pads (![0] : Fin 1 → Nat) ![95] ![0] S6656
  shapeCasts_S6656_S1x6656 : S6656.ShapeCasts S1x6656
  inb_S256x8_S256x8_0_0 : ∀ a, (![0, 0] : Fin 2 → Nat) a + S256x8.size a ≤ S256x8.size a
  h_S256x8 : 0 < S256x8.numel
  inb_S8x3_S8x3_0_0 : ∀ a, (![0, 0] : Fin 2 → Nat) a + S8x3.size a ≤ S8x3.size a
  h_S8x3 : 0 < S8x3.numel
  inb_S24x6656_S24x6656_0_0 : ∀ a, (![0, 0] : Fin 2 → Nat) a + S24x6656.size a ≤ S24x6656.size a
  h_S24x6656 : 0 < S24x6656.numel
  shapeCasts_S24x6656_S24x6656 : S24x6656.ShapeCasts S24x6656
  inb_S1x6656_S1x6656_0_0 : ∀ a, (![0, 0] : Fin 2 → Nat) a + S1x6656.size a ≤ S1x6656.size a
  h_S1x6656 : 0 < S1x6656.numel
  shapeCasts_S1x6656_S1x6656 : S1x6656.ShapeCasts S1x6656
  slices_S256x8_o0_0_S256x1 : S256x8.Slices ![0, 0] S256x1
  slices_S8x3_o0_0_S1x1 : S8x3.Slices ![0, 0] S1x1
  inpos_S1x1_p0_0 : ∀ a, (![0, 0] : Fin 2 → Nat) a < S1x1.size a
  slices_S24x6656_o0_0_S1x6656 : S24x6656.Slices ![0, 0] S1x6656
  broadcasts_S256x1_S256x6656 : S256x1.Broadcasts S256x6656
  broadcasts_S1x6656_S256x6656 : S1x6656.Broadcasts S256x6656
  slices_S8x3_o0_1_S1x1 : S8x3.Slices ![0, 1] S1x1
  slices_S24x6656_o1_0_S1x6656 : S24x6656.Slices ![1, 0] S1x6656
  slices_S8x3_o0_2_S1x1 : S8x3.Slices ![0, 2] S1x1
  slices_S24x6656_o2_0_S1x6656 : S24x6656.Slices ![2, 0] S1x6656
  slices_S256x8_o0_1_S256x1 : S256x8.Slices ![0, 1] S256x1
  slices_S8x3_o1_0_S1x1 : S8x3.Slices ![1, 0] S1x1
  slices_S24x6656_o3_0_S1x6656 : S24x6656.Slices ![3, 0] S1x6656
  slices_S8x3_o1_1_S1x1 : S8x3.Slices ![1, 1] S1x1
  slices_S24x6656_o4_0_S1x6656 : S24x6656.Slices ![4, 0] S1x6656
  slices_S8x3_o1_2_S1x1 : S8x3.Slices ![1, 2] S1x1
  slices_S24x6656_o5_0_S1x6656 : S24x6656.Slices ![5, 0] S1x6656
  slices_S256x8_o0_2_S256x1 : S256x8.Slices ![0, 2] S256x1
  slices_S8x3_o2_0_S1x1 : S8x3.Slices ![2, 0] S1x1
  slices_S24x6656_o6_0_S1x6656 : S24x6656.Slices ![6, 0] S1x6656
  slices_S8x3_o2_1_S1x1 : S8x3.Slices ![2, 1] S1x1
  slices_S24x6656_o7_0_S1x6656 : S24x6656.Slices ![7, 0] S1x6656
  slices_S8x3_o2_2_S1x1 : S8x3.Slices ![2, 2] S1x1
  slices_S24x6656_o8_0_S1x6656 : S24x6656.Slices ![8, 0] S1x6656
  slices_S256x8_o0_3_S256x1 : S256x8.Slices ![0, 3] S256x1
  slices_S8x3_o3_0_S1x1 : S8x3.Slices ![3, 0] S1x1
  slices_S24x6656_o9_0_S1x6656 : S24x6656.Slices ![9, 0] S1x6656
  slices_S8x3_o3_1_S1x1 : S8x3.Slices ![3, 1] S1x1
  slices_S24x6656_o10_0_S1x6656 : S24x6656.Slices ![10, 0] S1x6656
  slices_S8x3_o3_2_S1x1 : S8x3.Slices ![3, 2] S1x1
  slices_S24x6656_o11_0_S1x6656 : S24x6656.Slices ![11, 0] S1x6656
  slices_S256x8_o0_4_S256x1 : S256x8.Slices ![0, 4] S256x1
  slices_S8x3_o4_0_S1x1 : S8x3.Slices ![4, 0] S1x1
  slices_S24x6656_o12_0_S1x6656 : S24x6656.Slices ![12, 0] S1x6656
  slices_S8x3_o4_1_S1x1 : S8x3.Slices ![4, 1] S1x1
  slices_S24x6656_o13_0_S1x6656 : S24x6656.Slices ![13, 0] S1x6656
  slices_S8x3_o4_2_S1x1 : S8x3.Slices ![4, 2] S1x1
  slices_S24x6656_o14_0_S1x6656 : S24x6656.Slices ![14, 0] S1x6656
  slices_S256x8_o0_5_S256x1 : S256x8.Slices ![0, 5] S256x1
  slices_S8x3_o5_0_S1x1 : S8x3.Slices ![5, 0] S1x1
  slices_S24x6656_o15_0_S1x6656 : S24x6656.Slices ![15, 0] S1x6656
  slices_S8x3_o5_1_S1x1 : S8x3.Slices ![5, 1] S1x1
  slices_S24x6656_o16_0_S1x6656 : S24x6656.Slices ![16, 0] S1x6656
  slices_S8x3_o5_2_S1x1 : S8x3.Slices ![5, 2] S1x1
  slices_S24x6656_o17_0_S1x6656 : S24x6656.Slices ![17, 0] S1x6656
  slices_S256x8_o0_6_S256x1 : S256x8.Slices ![0, 6] S256x1
  slices_S8x3_o6_0_S1x1 : S8x3.Slices ![6, 0] S1x1
  slices_S24x6656_o18_0_S1x6656 : S24x6656.Slices ![18, 0] S1x6656
  slices_S8x3_o6_1_S1x1 : S8x3.Slices ![6, 1] S1x1
  slices_S24x6656_o19_0_S1x6656 : S24x6656.Slices ![19, 0] S1x6656
  slices_S8x3_o6_2_S1x1 : S8x3.Slices ![6, 2] S1x1
  slices_S24x6656_o20_0_S1x6656 : S24x6656.Slices ![20, 0] S1x6656
  slices_S256x8_o0_7_S256x1 : S256x8.Slices ![0, 7] S256x1
  slices_S8x3_o7_0_S1x1 : S8x3.Slices ![7, 0] S1x1
  slices_S24x6656_o21_0_S1x6656 : S24x6656.Slices ![21, 0] S1x6656
  slices_S8x3_o7_1_S1x1 : S8x3.Slices ![7, 1] S1x1
  slices_S24x6656_o22_0_S1x6656 : S24x6656.Slices ![22, 0] S1x6656
  slices_S8x3_o7_2_S1x1 : S8x3.Slices ![7, 2] S1x1
  slices_S24x6656_o23_0_S1x6656 : S24x6656.Slices ![23, 0] S1x6656
  reduces_S256x6656_S256 : S256x6656.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S8192x1_S8192 : S8192x1.ShapeCasts S8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8.size a ≤ S8192x8.size a
  hwx0_0 : ∀ i : grid0.Coords, EltTy.bits .f32 = 32 ∨ (Rect.block (s := S8192x8) S256x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x3.size a ≤ S8x3.size a
  hwx0_1 : ∀ i : grid0.Coords, EltTy.bits .f32 = 32 ∨ (Rect.block (s := S8x3) S8x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x3.size a ≤ S8x3.size a
  hwx0_2 : ∀ i : grid0.Coords, EltTy.bits .f32 = 32 ∨ (Rect.block (s := S8x3) S8x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S24x6656.size a ≤ S24x6656.size a
  hwx0_3 : ∀ i : grid0.Coords, EltTy.bits .f32 = 32 ∨ (Rect.block (s := S24x6656) S24x6656.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x6656.size a ≤ S1x6656.size a
  hwx0_4 : ∀ i : grid0.Coords, EltTy.bits .f32 = 32 ∨ (Rect.block (s := S1x6656) S1x6656.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S8192x1.size a
  hwx0_5 : ∀ i : grid0.Coords, EltTy.bits .f32 = 32 ∨ (Rect.block (s := S8192x1) S256x1.size (cc0_transform_5 i) (hinb0_5 i)).WholeWords (EltTy.packing .f32)

variable [Facts₀]

abbrev win0_0 : Pipeline.Window sig grid0 :=
  Pipeline.Window.ofSpec (Memref.whole main_arg0) S256x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S24x6656.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x6656.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S256x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x8 : Shape := ⟨2, ![8192, 8]⟩
abbrev S8x3 : Shape := ⟨2, ![8, 3]⟩
abbrev S6561x9 : Shape := ⟨2, ![6561, 9]⟩
abbrev S6561x8 : Shape := ⟨2, ![6561, 8]⟩
abbrev S8192x8x1 : Shape := ⟨3, ![8192, 8, 1]⟩
abbrev S1x8x3 : Shape := ⟨3, ![1, 8, 3]⟩
abbrev S8192x8x3 : Shape := ⟨3, ![8192, 8, 3]⟩
abbrev S_ : Shape := ⟨0, ![]⟩
abbrev S8192x6561 : Shape := ⟨2, ![8192, 6561]⟩
abbrev S8192x1x3 : Shape := ⟨3, ![8192, 1, 3]⟩
abbrev S8192x3 : Shape := ⟨2, ![8192, 3]⟩
abbrev S6561x1 : Shape := ⟨2, ![6561, 1]⟩
abbrev S6561 : Shape := ⟨1, ![6561]⟩
abbrev S8192 : Shape := ⟨1, ![8192]⟩
abbrev S8192x1 : Shape := ⟨2, ![8192, 1]⟩
abbrev S8192x9 : Shape := ⟨2, ![8192, 9]⟩

abbrev nBuf : Space → Nat
  | .hbm => 143
  | .vmem => 0
  | .smem => 0
  | _ => 0

abbrev hbmTy0_0 (i : Nat) : BufTy := match i % 128 with
  | 0 => ⟨S8192x8, .f32⟩
  | 1 => ⟨S8x3, .f32⟩
  | 2 => ⟨S8x3, .f32⟩
  | 3 => ⟨S6561x9, .f32⟩
  | 4 => ⟨S6561x8, .i32⟩
  | 5 => ⟨S8192x8x1, .f32⟩
  | 6 => ⟨S1x8x3, .f32⟩
  | 7 => ⟨S8192x8x3, .f32⟩
  | 8 => ⟨S8192x8x3, .f32⟩
  | 9 => ⟨S8192x8x3, .f32⟩
  | 10 => ⟨S1x8x3, .f32⟩
  | 11 => ⟨S8192x8x3, .f32⟩
  | 12 => ⟨S8192x8x3, .f32⟩
  | 13 => ⟨S8192x8x3, .f32⟩
  | 14 => ⟨S_, .f32⟩
  | 15 => ⟨S8192x8x3, .f32⟩
  | 16 => ⟨S8192x8x3, .f32⟩
  | 17 => ⟨S8192x8x3, .f32⟩
  | 18 => ⟨S_, .f32⟩
  | 19 => ⟨S8192x6561, .f32⟩
  | 20 => ⟨S8192x1x3, .f32⟩
  | 21 => ⟨S8192x3, .f32⟩
  | 22 => ⟨S6561x1, .i32⟩
  | 23 => ⟨S6561, .i32⟩
  | 24 => ⟨S_, .i32⟩
  | 25 => ⟨S6561, .i32⟩
  | 26 => ⟨S6561, .i1⟩
  | 27 => ⟨S_, .i32⟩
  | 28 => ⟨S6561, .i32⟩
  | 29 => ⟨S6561, .i32⟩
  | 30 => ⟨S6561, .i32⟩
  | 31 => ⟨S6561x1, .i32⟩
  | 32 => ⟨S8192x6561, .f32⟩
  | 33 => ⟨S8192x6561, .f32⟩
  | 34 => ⟨S8192x1x3, .f32⟩
  | 35 => ⟨S8192x3, .f32⟩
  | 36 => ⟨S6561x1, .i32⟩
  | 37 => ⟨S6561, .i32⟩
  | 38 => ⟨S_, .i32⟩
  | 39 => ⟨S6561, .i32⟩
  | 40 => ⟨S6561, .i1⟩
  | 41 => ⟨S_, .i32⟩
  | 42 => ⟨S6561, .i32⟩
  | 43 => ⟨S6561, .i32⟩
  | 44 => ⟨S6561, .i32⟩
  | 45 => ⟨S6561x1, .i32⟩
  | 46 => ⟨S8192x6561, .f32⟩
  | 47 => ⟨S8192x6561, .f32⟩
  | 48 => ⟨S8192x1x3, .f32⟩
  | 49 => ⟨S8192x3, .f32⟩
  | 50 => ⟨S6561x1, .i32⟩
  | 51 => ⟨S6561, .i32⟩
  | 52 => ⟨S_, .i32⟩
  | 53 => ⟨S6561, .i32⟩
  | 54 => ⟨S6561, .i1⟩
  | 55 => ⟨S_, .i32⟩
  | 56 => ⟨S6561, .i32⟩
  | 57 => ⟨S6561, .i32⟩
  | 58 => ⟨S6561, .i32⟩
  | 59 => ⟨S6561x1, .i32⟩
  | 60 => ⟨S8192x6561, .f32⟩
  | 61 => ⟨S8192x6561, .f32⟩
  | 62 => ⟨S8192x1x3, .f32⟩
  | 63 => ⟨S8192x3, .f32⟩
  | 64 => ⟨S6561x1, .i32⟩
  | 65 => ⟨S6561, .i32⟩
  | 66 => ⟨S_, .i32⟩
  | 67 => ⟨S6561, .i32⟩
  | 68 => ⟨S6561, .i1⟩
  | 69 => ⟨S_, .i32⟩
  | 70 => ⟨S6561, .i32⟩
  | 71 => ⟨S6561, .i32⟩
  | 72 => ⟨S6561, .i32⟩
  | 73 => ⟨S6561x1, .i32⟩
  | 74 => ⟨S8192x6561, .f32⟩
  | 75 => ⟨S8192x6561, .f32⟩
  | 76 => ⟨S8192x1x3, .f32⟩
  | 77 => ⟨S8192x3, .f32⟩
  | 78 => ⟨S6561x1, .i32⟩
  | 79 => ⟨S6561, .i32⟩
  | 80 => ⟨S_, .i32⟩
  | 81 => ⟨S6561, .i32⟩
  | 82 => ⟨S6561, .i1⟩
  | 83 => ⟨S_, .i32⟩
  | 84 => ⟨S6561, .i32⟩
  | 85 => ⟨S6561, .i32⟩
  | 86 => ⟨S6561, .i32⟩
  | 87 => ⟨S6561x1, .i32⟩
  | 88 => ⟨S8192x6561, .f32⟩
  | 89 => ⟨S8192x6561, .f32⟩
  | 90 => ⟨S8192x1x3, .f32⟩
  | 91 => ⟨S8192x3, .f32⟩
  | 92 => ⟨S6561x1, .i32⟩
  | 93 => ⟨S6561, .i32⟩
  | 94 => ⟨S_, .i32⟩
  | 95 => ⟨S6561, .i32⟩
  | 96 => ⟨S6561, .i1⟩
  | 97 => ⟨S_, .i32⟩
  | 98 => ⟨S6561, .i32⟩
  | 99 => ⟨S6561, .i32⟩
  | 100 => ⟨S6561, .i32⟩
  | 101 => ⟨S6561x1, .i32⟩
  | 102 => ⟨S8192x6561, .f32⟩
  | 103 => ⟨S8192x6561, .f32⟩
  | 104 => ⟨S8192x1x3, .f32⟩
  | 105 => ⟨S8192x3, .f32⟩
  | 106 => ⟨S6561x1, .i32⟩
  | 107 => ⟨S6561, .i32⟩
  | 108 => ⟨S_, .i32⟩
  | 109 => ⟨S6561, .i32⟩
  | 110 => ⟨S6561, .i1⟩
  | 111 => ⟨S_, .i32⟩
  | 112 => ⟨S6561, .i32⟩
  | 113 => ⟨S6561, .i32⟩
  | 114 => ⟨S6561, .i32⟩
  | 115 => ⟨S6561x1, .i32⟩
  | 116 => ⟨S8192x6561, .f32⟩
  | 117 => ⟨S8192x6561, .f32⟩
  | 118 => ⟨S8192x1x3, .f32⟩
  | 119 => ⟨S8192x3, .f32⟩
  | 120 => ⟨S6561x1, .i32⟩
  | 121 => ⟨S6561, .i32⟩
  | 122 => ⟨S_, .i32⟩
  | 123 => ⟨S6561, .i32⟩
  | 124 => ⟨S6561, .i1⟩
  | 125 => ⟨S_, .i32⟩
  | 126 => ⟨S6561, .i32⟩
  | 127 => ⟨S6561, .i32⟩
  | _ => ⟨S8192x8, .f32⟩

abbrev hbmTy0_1 (i : Nat) : BufTy := match i % 128 with
  | 0 => ⟨S6561, .i32⟩
  | 1 => ⟨S6561x1, .i32⟩
  | 2 => ⟨S8192x6561, .f32⟩
  | 3 => ⟨S8192x6561, .f32⟩
  | 4 => ⟨S_, .f32⟩
  | 5 => ⟨S8192, .f32⟩
  | 6 => ⟨S8192x1, .f32⟩
  | 7 => ⟨S_, .f32⟩
  | 8 => ⟨S8192x1, .f32⟩
  | 9 => ⟨S8192x1, .f32⟩
  | 10 => ⟨S8192x6561, .f32⟩
  | 11 => ⟨S8192x6561, .f32⟩
  | 12 => ⟨S8192x9, .f32⟩
  | 13 => ⟨S_, .f32⟩
  | 14 => ⟨S8192, .f32⟩
  | _ => ⟨S8192x8, .f32⟩

abbrev hbmTy (i : Nat) : BufTy := match i / 128 with
  | 0 => hbmTy0_0 i
  | 1 => hbmTy0_1 i
  | _ => ⟨S8192x8, .f32⟩

abbrev bufTy : (tb : Table) → Fin (tcTables nBuf tb) → BufTy
  | .hbm, ⟨i, _⟩ => hbmTy i
  | _, _ => ⟨S8192x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_2 : Ref sig .tc := ⟨.hbm, 38, rfl⟩
abbrev main_v29 : Ref sig .tc := ⟨.hbm, 39, rfl⟩
abbrev main_v30 : Ref sig .tc := ⟨.hbm, 40, rfl⟩
abbrev main_c_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_4 : Ref sig .tc := ⟨.hbm, 52, rfl⟩
abbrev main_v41 : Ref sig .tc := ⟨.hbm, 53, rfl⟩
abbrev main_v42 : Ref sig .tc := ⟨.hbm, 54, rfl⟩
abbrev main_c_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_c_6 : Ref sig .tc := ⟨.hbm, 66, rfl⟩
abbrev main_v53 : Ref sig .tc := ⟨.hbm, 67, rfl⟩
abbrev main_v54 : Ref sig .tc := ⟨.hbm, 68, rfl⟩
abbrev main_c_7 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_c_8 : Ref sig .tc := ⟨.hbm, 80, rfl⟩
abbrev main_v65 : Ref sig .tc := ⟨.hbm, 81, rfl⟩
abbrev main_v66 : Ref sig .tc := ⟨.hbm, 82, rfl⟩
abbrev main_c_9 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_c_10 : Ref sig .tc := ⟨.hbm, 94, rfl⟩
abbrev main_v77 : Ref sig .tc := ⟨.hbm, 95, rfl⟩
abbrev main_v78 : Ref sig .tc := ⟨.hbm, 96, rfl⟩
abbrev main_c_11 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_c_12 : Ref sig .tc := ⟨.hbm, 108, rfl⟩
abbrev main_v89 : Ref sig .tc := ⟨.hbm, 109, rfl⟩
abbrev main_v90 : Ref sig .tc := ⟨.hbm, 110, rfl⟩
abbrev main_c_13 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_c_14 : Ref sig .tc := ⟨.hbm, 122, rfl⟩
abbrev main_v101 : Ref sig .tc := ⟨.hbm, 123, rfl⟩
abbrev main_v102 : Ref sig .tc := ⟨.hbm, 124, rfl⟩
abbrev main_c_15 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_cst_16 : Ref sig .tc := ⟨.hbm, 132, rfl⟩
abbrev main_v109 : Ref sig .tc := ⟨.hbm, 133, rfl⟩
abbrev main_v110 : Ref sig .tc := ⟨.hbm, 134, rfl⟩
abbrev main_cst_17 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_cst_18 : Ref sig .tc := ⟨.hbm, 141, rfl⟩
abbrev main_v116 : Ref sig .tc := ⟨.hbm, 142, rfl⟩

abbrev nD : Nat := 1
abbrev τ : Topo := Topo.v7x

variable {F : FTy → Type} [FloatOps F]

class Facts₀ : Prop where
  bcast_S8192x8_S8192x8x1_0_1 : S8192x8.BroadcastsInDim S8192x8x1 (![0, 1] : Fin 2 → Fin S8192x8x1.rank)
  bcast_S8x3_S1x8x3_1_2 : S8x3.BroadcastsInDim S1x8x3 (![1, 2] : Fin 2 → Fin S1x8x3.rank)
  bcast_S8192x8x1_S8192x8x3_0_1_2 : S8192x8x1.BroadcastsInDim S8192x8x3 (![0, 1, 2] : Fin 3 → Fin S8192x8x3.rank)
  bcast_S1x8x3_S8192x8x3_0_1_2 : S1x8x3.BroadcastsInDim S8192x8x3 (![0, 1, 2] : Fin 3 → Fin S8192x8x3.rank)
  bcast_S_S8192x8x3 : S_.BroadcastsInDim S8192x8x3 (![] : Fin 0 → Fin S8192x8x3.rank)
  bcast_S_S8192x6561 : S_.BroadcastsInDim S8192x6561 (![] : Fin 0 → Fin S8192x6561.rank)
  slices_S8192x8x3_S8192x1x3_0_0_0 : S8192x8x3.Slices ![0, 0, 0] S8192x1x3
  shapeCasts_S8192x1x3_S8192x3 : S8192x1x3.ShapeCasts S8192x3
  slices_S6561x8_S6561x1_0_0 : S6561x8.Slices ![0, 0] S6561x1
  shapeCasts_S6561x1_S6561 : S6561x1.ShapeCasts S6561
  bcast_S_S6561 : S_.BroadcastsInDim S6561 (![] : Fin 0 → Fin S6561.rank)
  bcast_S6561_S6561x1_0 : S6561.BroadcastsInDim S6561x1 (![0] : Fin 1 → Fin S6561x1.rank)
  slices_S8192x8x3_S8192x1x3_0_1_0 : S8192x8x3.Slices ![0, 1, 0] S8192x1x3
  slices_S6561x8_S6561x1_0_1 : S6561x8.Slices ![0, 1] S6561x1
  slices_S8192x8x3_S8192x1x3_0_2_0 : S8192x8x3.Slices ![0, 2, 0] S8192x1x3
  slices_S6561x8_S6561x1_0_2 : S6561x8.Slices ![0, 2] S6561x1
  slices_S8192x8x3_S8192x1x3_0_3_0 : S8192x8x3.Slices ![0, 3, 0] S8192x1x3
  slices_S6561x8_S6561x1_0_3 : S6561x8.Slices ![0, 3] S6561x1
  slices_S8192x8x3_S8192x1x3_0_4_0 : S8192x8x3.Slices ![0, 4, 0] S8192x1x3
  slices_S6561x8_S6561x1_0_4 : S6561x8.Slices ![0, 4] S6561x1
  slices_S8192x8x3_S8192x1x3_0_5_0 : S8192x8x3.Slices ![0, 5, 0] S8192x1x3
  slices_S6561x8_S6561x1_0_5 : S6561x8.Slices ![0, 5] S6561x1
  slices_S8192x8x3_S8192x1x3_0_6_0 : S8192x8x3.Slices ![0, 6, 0] S8192x1x3
  slices_S6561x8_S6561x1_0_6 : S6561x8.Slices ![0, 6] S6561x1
  slices_S8192x8x3_S8192x1x3_0_7_0 : S8192x8x3.Slices ![0, 7, 0] S8192x1x3
  slices_S6561x8_S6561x1_0_7 : S6561x8.Slices ![0, 7] S6561x1
  reducesTo_S8192x6561_S8192_d1 : S8192x6561.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x6561_0_1 : S8192x1.BroadcastsInDim S8192x6561 (![0, 1] : Fin 2 → Fin S8192x6561.rank)
  reducesTo_S8192x9_S8192_d1 : S8192x9.ReducesTo [1] S8192
  gather_S8192x3_S6561x1_S8192x6561_0_1_n_n_1_1_81921_wf : GatherDims.WF S8192x3 S6561x1 S8192x6561 [0] [1] [] [1] [] 1 ![8192, 1]
  dot_S8192x6561_S6561x9_S8192x9_1_0_0_1_n_n_wf : DotDims.WF S8192x6561 S6561x9 S8192x9 [1] [0] [0] [1] [] []

variable [Facts₀]

def gather_S8192x3_S6561x1_S8192x6561_0_1_n_n_1_1_81921 : GatherDims S8192x3 S6561x1 S8192x6561 where
  offsetDims := [0]
  collapsedSliceDims := [1]
  operandBatchingDims := []
  startIndicesBatchingDims := []
  startIndexMap := [1]
  indexVectorDim := 1
  sliceSizes := ![8192, 1]
  wf := gather_S8192x3_S6561x1_S8192x6561_0_1_n_n_1_1_81921_wf
def dot_S8192x6561_S6561x9_S8192x9_1_0_0_1_n_n : DotDims S8192x6561 S6561x9 S8192x9 where
  lhsContracting := [1]
  rhsContracting := [0]
  lhsNonContracting := [0]
  rhsNonContracting := [1]
  lhsBatch := []
  rhsBatch := []
  wf := dot_S8192x6561_S6561x9_S8192x9_1_0_0_1_n_n_wf

class Facts : Prop extends Facts₀ where

variable [Facts]
-- ==== Proof.Spec.lean ====
/-
  The fuzzy-inference layer both programs compute, written once over the extended reals.

  A row `xr` of eight features meets, for each feature `f`, three Gaussian membership functions
  `memb x μ σ = exp (-(1/2) · ((x - μ) / σ)²)`. A rule `r` names one membership function per feature (the index words
  `rules[r, f]`); its firing strength is the product over the features of the named memberships. The output is the
  firing-strength-weighted average of the rules' consequent row sums,
  `(Σ_r fire r · Σ_j cons[r, j]) / (Σ_r fire r + ε)`.

  Two arrangements of that number are stated here in the exact association in which each program evaluates it:
  `outR` normalises every firing strength first, contracts with the consequents column by column and sums the columns;
  `outK` contracts the raw firing strengths with the row sums and divides once. The kernel moreover reads the named
  membership through a 0/1 table `T` with one row per (feature, membership) pair and one column per rule, padded with
  zero columns up to 6656: `mix` is the table-weighted sum of a feature's three memberships, `accK` the product of the
  eight mixtures, `blockOut` the kernel's quotient over the padded columns.
-/
import Idealize.ShloMosaic.PureOps.Ideal
import Idealize.ShloMosaic.Lib.ValueIdx

noncomputable section

open scoped BigOperators

namespace Cert.Anfis

open Idealize.ShloMosaic Idealize.ShloMosaic.ValueIdx

/-- An `a × b` array of `α`. -/
abbrev Arr (a b : Nat) (α : Type) : Type := (⟨2, ![a, b]⟩ : Shape).Idx → α

/-- The literal `-0.5`. -/
def negHalf : EReal := Ideal.ofBits .f32 0xBF000000#32
/-- The literal `1.0`. -/
def one32 : EReal := Ideal.ofBits .f32 0x3F800000#32
/-- The literal `0.0`. -/
def zero32 : EReal := Ideal.ofBits .f32 0x00000000#32
/-- The literal `1e-10` as an f32. -/
def eps32 : EReal := Ideal.ofBits .f32 0x2EDBE6FF#32

/-- The Gaussian membership of `x` in the function centred at `mu` with width `sg`. -/
def memb (x mu sg : EReal) : EReal :=
  Ideal.exp (negHalf * (Ideal.div (x - mu) sg * Ideal.div (x - mu) sg))

/-- The membership function an index word names: the word read signed, clamped into `{0, 1, 2}`. -/
def mfIdx (w : BitVec 32) : Fin 3 := ⟨min w.toInt.toNat 2, by omega⟩

/-- Every index word of the rule table names one of the three membership functions. -/
def InRange (rules : Arr 6561 8 (BitVec 32)) : Prop :=
  ∀ (r : Fin 6561) (f : Fin 8), 0 ≤ (rules (ix2 r f)).toInt ∧ (rules (ix2 r f)).toInt < 3

/-- Feature `f`'s factor of rule `r`'s firing strength on the row `xr`. -/
def gterm (xr : Fin 8 → EReal) (mu sg : Arr 8 3 EReal) (rules : Arr 6561 8 (BitVec 32)) (r : Fin 6561) (f : Fin 8) : EReal :=
  memb (xr f) (mu (ix2 f (mfIdx (rules (ix2 r f))))) (sg (ix2 f (mfIdx (rules (ix2 r f)))))

/-- Rule `r`'s firing strength on the row `xr`: the eight factors multiplied into `1`, first feature first. -/
def fire (xr : Fin 8 → EReal) (mu sg : Arr 8 3 EReal) (rules : Arr 6561 8 (BitVec 32)) (r : Fin 6561) : EReal :=
  one32 * gterm xr mu sg rules r 0 * gterm xr mu sg rules r 1 * gterm xr mu sg rules r 2 * gterm xr mu sg rules r 3
    * gterm xr mu sg rules r 4 * gterm xr mu sg rules r 5 * gterm xr mu sg rules r 6 * gterm xr mu sg rules r 7

/-- The normaliser: the firing strengths summed into `0`, plus `ε`. -/
def den (xr : Fin 8 → EReal) (mu sg : Arr 8 3 EReal) (rules : Arr 6561 8 (BitVec 32)) : EReal :=
  (zero32 + ∑ r : Fin 6561, fire xr mu sg rules r) + eps32

/-- Rule `r`'s consequent row, summed into `0`. -/
def rowsum (cons : Arr 6561 9 EReal) (r : Fin 6561) : EReal := zero32 + ∑ j : Fin 9, cons (ix2 r j)

/-- The output as the kernel arranges it: raw strengths against row sums, one division. -/
def outK (xr : Fin 8 → EReal) (mu sg : Arr 8 3 EReal) (rules : Arr 6561 8 (BitVec 32)) (cons : Arr 6561 9 EReal) : EReal :=
  Ideal.div (zero32 + ∑ r : Fin 6561, fire xr mu sg rules r * rowsum cons r) (den xr mu sg rules)

/-- The output as the reference arranges it: normalised strengths against each consequent column, the columns summed. -/
def outR (xr : Fin 8 → EReal) (mu sg : Arr 8 3 EReal) (rules : Arr 6561 8 (BitVec 32)) (cons : Arr 6561 9 EReal) : EReal :=
  zero32 + ∑ j : Fin 9, ∑ r : Fin 6561, Ideal.div (fire xr mu sg rules r) (den xr mu sg rules) * cons (ix2 r j)

/-! ## The kernel's table form -/

/-- The table row of feature `f`'s membership `k`. -/
def trow (f : Fin 8) (k : Fin 3) : Fin 24 := ⟨3 * f.val + k.val, by omega⟩

/-- Feature `f`'s three memberships on the row `xr`, weighted by column `q` of the table and summed into `0`. -/
def mix (xr : Fin 8 → EReal) (mu sg : Arr 8 3 EReal) (T : Arr 24 6656 EReal) (q : Fin 6656) (f : Fin 8) : EReal :=
  zero32 + memb (xr f) (mu (ix2 f 0)) (sg (ix2 f 0)) * T (ix2 (trow f 0) q)
    + memb (xr f) (mu (ix2 f 1)) (sg (ix2 f 1)) * T (ix2 (trow f 1) q)
    + memb (xr f) (mu (ix2 f 2)) (sg (ix2 f 2)) * T (ix2 (trow f 2) q)

/-- The eight mixtures multiplied into `1`, first feature first: column `q`'s strength as the kernel forms it. -/
def accK (xr : Fin 8 → EReal) (mu sg : Arr 8 3 EReal) (T : Arr 24 6656 EReal) (q : Fin 6656) : EReal :=
  one32 * mix xr mu sg T q 0 * mix xr mu sg T q 1 * mix xr mu sg T q 2 * mix xr mu sg T q 3
    * mix xr mu sg T q 4 * mix xr mu sg T q 5 * mix xr mu sg T q 6 * mix xr mu sg T q 7

/-- The kernel's quotient for one row, over all 6656 columns: strengths against the padded row-sum vector `C`, over
    the strengths' sum plus `ε`. -/
def blockOut (xr : Fin 8 → EReal) (mu sg : Arr 8 3 EReal) (T : Arr 24 6656 EReal) (C : Arr 1 6656 EReal) : EReal :=
  Ideal.div (zero32 + ∑ q : Fin 6656, accK xr mu sg T q * C (ix2 0 q))
    ((zero32 + ∑ q : Fin 6656, accK xr mu sg T q) + eps32)

/-- `T` is the one-hot table of the rules: entry (feature `f`'s membership `k`, column `q`) is `1` when column `q` is a
    rule whose word for `f` names `k`, and `0` otherwise — on the padding columns always `0`. -/
def IsOneHot (rules : Arr 6561 8 (BitVec 32)) (T : Arr 24 6656 EReal) : Prop :=
  ∀ (f : Fin 8) (k : Fin 3) (q : Fin 6656),
    T (ix2 (trow f k) q) = if h : q.val < 6561 then (if mfIdx (rules (ix2 ⟨q.val, h⟩ f)) = k then 1 else 0) else 0

/-- `C` is the vector of the consequents' row sums, padded with zeros. -/
def IsRowSums (cons : Arr 6561 9 EReal) (C : Arr 1 6656 EReal) : Prop :=
  ∀ q : Fin 6656, C (ix2 0 q) = if h : q.val < 6561 then rowsum cons ⟨q.val, h⟩ else 0

end Cert.Anfis

end
-- ==== Proof.LibRealSums.lean ====
import Idealize.ShloMosaic.PureOps.Ideal

/-! # Finite sums of extended reals that are real numbers

On the extended reals a product does not distribute over a sum, and a factor does not move across a sum, once an
infinity is among the terms; among real numbers both hold. `IsReal x` says the extended real `x` is a real number; it is
kept by sums, products, maxima, inverses and by the quotient `Ideal.div` by a non-zero divisor. Two laws follow:

* `div_eq_mul_div_one`: dividing by a non-zero `c` is multiplying by the reciprocal `1 / c` (no finiteness needed);
* `sum_div_mul_eq`: for real terms `a e k` and real weights `w k`, summing over a finite set `E` first, dividing by
  `c ≠ 0` and contracting with `w` is the same as contracting each `a e ·` with `w`, summing over `E`, and multiplying by the
  reciprocal `1 / c` — the average of linear images is the linear image of the average. -/

open scoped BigOperators

namespace Idealize.ShloMosaic.RealSums

open Idealize.ShloMosaic

/-- The extended real `x` is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem IsReal.sum {ι : Type*} (s : Finset ι) (f : ι → EReal) (h : ∀ i ∈ s, IsReal (f i)) :
    IsReal (∑ i ∈ s, f i) :=
  Finset.sum_induction f IsReal (fun _ _ => IsReal.add) IsReal.zero h

/-- The inverse of ANY extended real is a real number: the infinities invert to zero. -/
theorem IsReal.inv (c : EReal) : IsReal c⁻¹ := by
  induction c using EReal.rec with
  | bot => exact ⟨0, EReal.inv_bot⟩
  | top => exact ⟨0, EReal.inv_top⟩
  | coe r => exact ⟨r⁻¹, (EReal.coe_inv r).symm⟩

theorem IsReal.div {x c : EReal} (hx : IsReal x) (hc : c ≠ 0) : IsReal (Ideal.div x c) := by
  rw [Ideal.div, if_neg hc]; exact hx.mul (IsReal.inv c)

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing by a non-zero `c` is multiplying by its reciprocal. -/
theorem div_eq_mul_div_one (x : EReal) {c : EReal} (hc : c ≠ 0) : Ideal.div x c = x * Ideal.div 1 c := by
  rw [Ideal.div, if_neg hc, Ideal.div, if_neg hc, one_mul]

/-- THE AVERAGE OF LINEAR IMAGES: real terms summed over `E`, divided by `c ≠ 0`, contracted with real weights, against
    each term contracted first, then summed over `E`, then scaled by the reciprocal of `c`. -/
theorem sum_div_mul_eq {ι κ : Type*} [Fintype κ] (E : Finset ι) (a : ι → κ → EReal) (w : κ → EReal) (c : EReal)
    (ha : ∀ e k, IsReal (a e k)) (hw : ∀ k, IsReal (w k)) (hc : c ≠ 0) :
    ∑ k, Ideal.div (∑ e ∈ E, a e k) c * w k = (∑ e ∈ E, ∑ k, a e k * w k) * Ideal.div 1 c := by
  obtain ⟨r, hr⟩ := IsReal.inv c
  choose a' ha' using ha
  choose w' hw' using hw
  have hd : ∀ x, Ideal.div x c = x * (r : EReal) := fun x => by rw [Ideal.div, if_neg hc, hr]
  simp only [hd, ha', hw', one_mul, ← coe_sum, ← EReal.coe_mul]
  rw [EReal.coe_eq_coe_iff]
  simp only [Finset.sum_mul]
  rw [Finset.sum_comm]
  refine Finset.sum_congr rfl fun e _ => Finset.sum_congr rfl fun k _ => ?_
  ring

end Idealize.ShloMosaic.RealSums
-- ==== Proof.SpecAlgebra.lean ====
/-
  The two laws that join the kernel's arrangement of the output to the reference's (Spec.lean has the definitions).
-/
import proofs.«414870_j66477503807887_1_alg».proof.Proof.Spec
import proofs.«414870_j66477503807887_1_alg».proof.Proof.LibRealSums
import Idealize.ShloMosaic.PureOps.Ideal.Laws

noncomputable section

open scoped BigOperators

namespace Cert.Anfis

open Idealize.ShloMosaic Idealize.ShloMosaic.ValueIdx Idealize.ShloMosaic.RealSums

/-! ## The literals as real numbers -/

/-- The literal `0.0` is the number `0`. -/
theorem zero32_eq : zero32 = 0 := by
  unfold zero32; exact Ideal.ofBits_zero_f32

/-- The literal `1.0` is the number `1`. -/
theorem one32_eq : one32 = 1 := by
  unfold one32; simp [Ideal.ofBits, Ideal.ieee, -EReal.coe_mul]; norm_num

/-- The literal `-0.5` is the real number `-1/2`. -/
theorem negHalf_eq : negHalf = ((-1/2 : ℝ) : EReal) := by
  unfold negHalf; simp [Ideal.ofBits, Ideal.ieee, -EReal.coe_mul]; norm_num

/-- The literal `ε` is a positive real number. -/
theorem eps32_pos : ∃ e : ℝ, 0 < e ∧ eps32 = (e : EReal) := by
  unfold eps32
  simp [Ideal.ofBits, Ideal.ieee, -EReal.coe_mul]

/-! ## A rule's column and a padding column of the table -/

/-- On a rule's column the mixture of a feature's three memberships is the one membership the rule names. -/
theorem mix_eq_gterm (xr : Fin 8 → EReal) (mu sg : Arr 8 3 EReal) (rules : Arr 6561 8 (BitVec 32))
    (T : Arr 24 6656 EReal) (hT : IsOneHot rules T) (q : Fin 6656) (h : q.val < 6561) (f : Fin 8) :
    mix xr mu sg T q f = gterm xr mu sg rules ⟨q.val, h⟩ f := by
  unfold mix gterm
  rw [hT f 0 q, hT f 1 q, hT f 2 q, zero32_eq]
  simp only [dif_pos h]
  generalize mfIdx (rules (ix2 ⟨q.val, h⟩ f)) = k
  fin_cases k <;> simp

/-- On a padding column every mixture is `0`. -/
theorem mix_eq_zero (xr : Fin 8 → EReal) (mu sg : Arr 8 3 EReal) (rules : Arr 6561 8 (BitVec 32))
    (T : Arr 24 6656 EReal) (hT : IsOneHot rules T) (q : Fin 6656) (h : ¬ q.val < 6561) (f : Fin 8) :
    mix xr mu sg T q f = 0 := by
  unfold mix
  rw [hT f 0 q, hT f 1 q, hT f 2 q, zero32_eq]
  simp only [dif_neg h, mul_zero, add_zero]

/-- A rule's column carries the rule's firing strength. -/
theorem accK_rule (xr : Fin 8 → EReal) (mu sg : Arr 8 3 EReal) (rules : Arr 6561 8 (BitVec 32))
    (T : Arr 24 6656 EReal) (hT : IsOneHot rules T) (q : Fin 6656) (h : q.val < 6561) :
    accK xr mu sg T q = fire xr mu sg rules ⟨q.val, h⟩ := by
  unfold accK fire
  simp only [mix_eq_gterm xr mu sg rules T hT q h]

/-- A padding column carries `0`. -/
theorem accK_pad (xr : Fin 8 → EReal) (mu sg : Arr 8 3 EReal) (rules : Arr 6561 8 (BitVec 32))
    (T : Arr 24 6656 EReal) (hT : IsOneHot rules T) (q : Fin 6656) (h : ¬ q.val < 6561) :
    accK xr mu sg T q = 0 := by
  unfold accK
  rw [mix_eq_zero xr mu sg rules T hT q h 7, mul_zero]

/-- A sum over the 6656 columns whose terms vanish on the padding is the sum over the 6561 rules. -/
theorem sum_pad (g : Fin 6656 → EReal) (hpad : ∀ q : Fin 6656, ¬ q.val < 6561 → g q = 0) :
    ∑ q : Fin 6656, g q = ∑ r : Fin 6561, g ⟨r.val, by omega⟩ := by
  have h := Fin.sum_univ_add (M := EReal) (a := 6561) (b := 95) (fun i => g i)
  refine h.trans ?_
  have hz : ∑ i : Fin 95, g (Fin.natAdd 6561 i) = 0 :=
    Finset.sum_eq_zero fun i _ => hpad _ (by simp [Fin.natAdd])
  rw [hz, add_zero]
  rfl

/-- Over a one-hot table and the padded row sums, the kernel's quotient over 6656 columns is the quotient over the
    6561 rules: on a rule's column each feature's mixture is the one membership the rule names, and a padding column
    contributes nothing to either sum. -/
theorem blockOut_eq_outK (xr : Fin 8 → EReal) (mu sg : Arr 8 3 EReal) (rules : Arr 6561 8 (BitVec 32))
    (cons : Arr 6561 9 EReal) (T : Arr 24 6656 EReal) (C : Arr 1 6656 EReal)
    (hT : IsOneHot rules T) (hC : IsRowSums cons C) :
    blockOut xr mu sg T C = outK xr mu sg rules cons := by
  have h1 : ∑ q : Fin 6656, accK xr mu sg T q * C (ix2 0 q)
      = ∑ r : Fin 6561, fire xr mu sg rules r * rowsum cons r := by
    rw [sum_pad _ (fun q hq => by rw [accK_pad xr mu sg rules T hT q hq, zero_mul])]
    refine Finset.sum_congr rfl fun r _ => ?_
    rw [accK_rule xr mu sg rules T hT ⟨r.val, by omega⟩ r.isLt, hC, dif_pos r.isLt]
  have h2 : ∑ q : Fin 6656, accK xr mu sg T q = ∑ r : Fin 6561, fire xr mu sg rules r := by
    rw [sum_pad _ (fun q hq => accK_pad xr mu sg rules T hT q hq)]
    refine Finset.sum_congr rfl fun r _ => ?_
    rw [accK_rule xr mu sg rules T hT ⟨r.val, by omega⟩ r.isLt]
  unfold blockOut outK den
  rw [h1, h2]

/-! ## The firing strengths are non-negative real numbers -/

/-- The square of an extended real is `⊤` or a real number. -/
theorem sq_cases (t : EReal) : t * t = ⊤ ∨ ∃ s : ℝ, t * t = (s : EReal) := by
  induction t using EReal.rec with
  | bot => left; exact EReal.bot_mul_bot
  | top => left; exact EReal.top_mul_top
  | coe r => right; exact ⟨r * r, (EReal.coe_mul r r).symm⟩

/-- A membership is a non-negative real number whatever its arguments are. -/
theorem memb_real (x mu sg : EReal) : ∃ m : ℝ, 0 ≤ m ∧ memb x mu sg = (m : EReal) := by
  unfold memb
  rcases sq_cases (Ideal.div (x - mu) sg) with h | ⟨s, h⟩
  · rw [h, negHalf_eq, EReal.coe_mul_top_of_neg (by norm_num), Ideal.exp_bot]
    exact ⟨0, le_rfl, rfl⟩
  · rw [h, negHalf_eq, ← EReal.coe_mul, Ideal.exp_coe]
    exact ⟨_, (Real.exp_pos _).le, rfl⟩

/-- Non-negative reals are closed under the product. -/
theorem nn_mul {x y : EReal} (hx : ∃ a : ℝ, 0 ≤ a ∧ x = (a : EReal)) (hy : ∃ b : ℝ, 0 ≤ b ∧ y = (b : EReal)) :
    ∃ c : ℝ, 0 ≤ c ∧ x * y = (c : EReal) := by
  obtain ⟨a, ha, rfl⟩ := hx; obtain ⟨b, hb, rfl⟩ := hy
  exact ⟨a * b, mul_nonneg ha hb, (EReal.coe_mul a b).symm⟩

/-- A firing strength is a non-negative real number. -/
theorem fire_real (xr : Fin 8 → EReal) (mu sg : Arr 8 3 EReal) (rules : Arr 6561 8 (BitVec 32)) (r : Fin 6561) :
    ∃ F : ℝ, 0 ≤ F ∧ fire xr mu sg rules r = (F : EReal) := by
  have hg : ∀ f, ∃ m : ℝ, 0 ≤ m ∧ gterm xr mu sg rules r f = (m : EReal) := fun f => memb_real _ _ _
  have h1 : ∃ m : ℝ, 0 ≤ m ∧ one32 = (m : EReal) := ⟨1, zero_le_one, one32_eq⟩
  unfold fire
  exact nn_mul (nn_mul (nn_mul (nn_mul (nn_mul (nn_mul (nn_mul (nn_mul h1 (hg 0)) (hg 1)) (hg 2)) (hg 3)) (hg 4))
    (hg 5)) (hg 6)) (hg 7)

/-- With real consequents, dividing once after the contraction is normalising first: the firing strengths are real
    numbers in [0, 1] whatever the inputs are, so the normaliser is a positive real and the quotient distributes. -/
theorem outK_eq_outR (xr : Fin 8 → EReal) (mu sg : Arr 8 3 EReal) (rules : Arr 6561 8 (BitVec 32))
    (cons : Arr 6561 9 EReal) (hc : ∀ i, ∃ y : ℝ, cons i = (y : EReal)) :
    outK xr mu sg rules cons = outR xr mu sg rules cons := by
  choose F hF0 hF using fire_real xr mu sg rules
  choose c hc using hc
  obtain ⟨e, he0, he⟩ := eps32_pos
  have hden : den xr mu sg rules = ((∑ r, F r + e : ℝ) : EReal) := by
    unfold den
    simp only [hF, zero32_eq, zero_add, he, ← coe_sum, ← EReal.coe_add]
  have hD : 0 < ∑ r, F r + e := add_pos_of_nonneg_of_pos (Finset.sum_nonneg fun r _ => hF0 r) he0
  have hdiv : ∀ x : EReal, Ideal.div x (den xr mu sg rules) = x * (((∑ r, F r + e)⁻¹ : ℝ) : EReal) := by
    intro x
    have hne : ((∑ r, F r + e : ℝ) : EReal) ≠ 0 := by
      rw [← EReal.coe_zero, Ne, EReal.coe_eq_coe_iff]; exact hD.ne'
    rw [hden, Ideal.div, if_neg hne, EReal.coe_inv]
  unfold outK outR rowsum
  simp only [hdiv, hF, hc, zero32_eq, zero_add, ← coe_sum, ← EReal.coe_mul]
  rw [EReal.coe_eq_coe_iff, Finset.sum_comm, Finset.sum_mul]
  refine Finset.sum_congr rfl fun r _ => ?_
  rw [Finset.mul_sum, Finset.sum_mul]
  refine Finset.sum_congr rfl fun j _ => ?_
  ring

end Cert.Anfis

end
-- ==== Proof.PreDecode.lean ====
/-
  What the precondition says of the arrays: the consequents are real numbers, and every rule word is 0, 1 or 2.
-/
import proofs.«414870_j66477503807887_1_alg».proof.Proof.Spec
import proofs.«414870_j66477503807887_1_alg».proof.Pre_finite_inputs
import Idealize.ShloMosaic.PureOps.Ideal
import Idealize.ShloMosaic.Lib.ReduceAll
import Idealize.ShloMosaic.Lib.ValueIdx
import Idealize.ShloMosaic.Lib.StableHlo.Predicate

noncomputable section

namespace Cert.Pre_finite_inputs.Decode

open Cert.Pre_finite_inputs Idealize.ShloMosaic Idealize.ShloMosaic.ValueIdx Cert.Anfis

variable [Cert.Pre_finite_inputs.Facts]

/-- The scalar shape has exactly one index. -/
private instance : Subsingleton S_.Idx := ⟨fun _ _ => funext fun d => d.elim0⟩

/-- An extended real whose absolute value `max x (-x)` is strictly below the word of `+∞` is a real number. -/
private theorem real_of_abs_lt_inf (x : EReal)
    (hx : Ideal.cmp .olt (max x (-x)) (Ideal.ofBits .f32 0x7F800000#32) = 1#1) : ∃ y : ℝ, x = (y : EReal) := by
  have htop : Ideal.ofBits .f32 0x7F800000#32 = ⊤ := by simp [Ideal.ofBits, Ideal.ieee]
  rw [htop] at hx
  unfold Ideal.cmp at hx
  induction x using EReal.rec with
  | bot => simp at hx
  | top => simp at hx
  | coe r => exact ⟨r, rfl⟩

/-- A 32-bit word that tests `≥ 0` and `< 3` signed lies in `[0, 3)`. -/
private theorem range_of_mask (w : BitVec 32)
    (hw : IntOp.andi (IntOp.cmpi .sge w 0#32) (IntOp.cmpi .slt w 3#32) = 1#1) : 0 ≤ w.toInt ∧ w.toInt < 3 := by
  obtain ⟨h1, h2⟩ := IntOp.andi_eq_one.1 hw
  have h1' := IntOp.cmpi_sge.1 h1
  have h2' := IntOp.cmpi_slt.1 h2
  rw [show (0#32 : BitVec 32).toInt = 0 from by decide] at h1'
  rw [show (3#32 : BitVec 32).toInt = 3 from by decide] at h2'
  exact ⟨h1', h2'⟩

/-- The precondition's conjunction, split: the finiteness mask of the consequents and the range mask of the rule
    words are 1 at every index. -/
private theorem masks (a0 : FVec Ideal S8192x8 .f32) (a1 a2 : FVec Ideal S8x3 .f32) (a3 : FVec Ideal S6561x9 .f32)
    (a4 : IVec S6561x8 32) (h : fn (F := Ideal) a0 a1 a2 a3 a4 = fun _ => 1#1) :
    (∀ i, Ideal.cmp .olt (max (a3 i) (-(a3 i))) (Ideal.ofBits .f32 0x7F800000#32) = 1#1)
      ∧ (∀ i, IntOp.andi (IntOp.cmpi .sge (a4 i) 0#32) (IntOp.cmpi .slt (a4 i) 3#32) = 1#1) := by
  have h0 := congrFun h ValueIdx.ix0
  dsimp only [fn, fn_part1] at h0
  obtain ⟨h18, h24⟩ := IntOp.andi_eq_one.1 h0
  obtain ⟨-, h17⟩ := IntOp.andi_eq_one.1 h18
  refine ⟨fun i => ?_, fun i => ?_⟩
  · exact Host.reduce_andi_all _ _ _ _ _ h17 i
  · exact Host.reduce_andi_all _ _ _ _ _ h24 i

/-- Under the precondition every consequent is a real number. -/
theorem cons_real (a0 : FVec Ideal S8192x8 .f32) (a1 a2 : FVec Ideal S8x3 .f32) (a3 : FVec Ideal S6561x9 .f32)
    (a4 : IVec S6561x8 32) (h : fn (F := Ideal) a0 a1 a2 a3 a4 = fun _ => 1#1) :
    ∀ i, ∃ y : ℝ, a3 i = (y : EReal) :=
  fun i => real_of_abs_lt_inf (a3 i) ((masks a0 a1 a2 a3 a4 h).1 i)

/-- Under the precondition every rule word, read signed, is 0, 1 or 2. -/
theorem rules_range (a0 : FVec Ideal S8192x8 .f32) (a1 a2 : FVec Ideal S8x3 .f32) (a3 : FVec Ideal S6561x9 .f32)
    (a4 : IVec S6561x8 32) (h : fn (F := Ideal) a0 a1 a2 a3 a4 = fun _ => 1#1) :
    InRange a4 :=
  fun r f => range_of_mask (a4 (ix2 r f)) ((masks a0 a1 a2 a3 a4 h).2 (ix2 r f))

end Cert.Pre_finite_inputs.Decode

end
-- ==== Proof.KernelTable.lean ====
/-
  The two arrays the host lines before the region build for it: the one-hot table of the rules and the padded vector
  of the consequents' row sums.
-/
import proofs.«414870_j66477503807887_1_alg».proof.Proof.Spec
import proofs.«414870_j66477503807887_1_alg».proof.Proof.Gen.KernelIdeal.Frame
import Idealize.ShloMosaic.Lib.Pipeline.Value
import Idealize.ShloMosaic.Lib.ValueIdx
import Idealize.ShloMosaic.Lib.KernelVsHost
import Idealize.ShloMosaic.Lib.StableHlo.Run
import Idealize.ShloMosaic.PureOps.Ideal.Laws

noncomputable section

open scoped BigOperators

namespace Cert.KernelIdeal.Table

open Cert.KernelIdeal Cert.KernelIdeal.Gen Idealize.ShloMosaic Idealize.ShloMosaic.TcCoe Idealize.ShloMosaic.ValueIdx
open Idealize.SL.Sem Cert.Anfis

variable (m : (ℓ : Loc nD τ sig) → Buf (Elt Ideal) ℓ)

/-- A word read signed in `[0, 3)` is the word of `k` exactly when it names the membership function `k`. -/
theorem word_eq_iff (w : BitVec 32) (h0 : 0 ≤ w.toInt) (h3 : w.toInt < 3) (k : Fin 3) :
    w = BitVec.ofNat 32 k.val ↔ mfIdx w = k := by
  have hlt := w.isLt
  have hk := k.isLt
  have hn : w.toInt = (w.toNat : ℤ) := by
    rw [BitVec.toInt_eq_toNat_cond] at h0 ⊢
    split_ifs at h0 ⊢ with h
    · rfl
    · omega
  have key : mfIdx w = k ↔ w.toNat = k.val := by
    unfold mfIdx
    rw [Fin.ext_iff]
    show min w.toInt.toNat 2 = k.val ↔ _
    rw [hn] at h3 ⊢
    rw [Int.toNat_natCast]
    omega
  rw [key]
  constructor
  · rintro rfl
    rw [BitVec.toNat_ofNat]
    omega
  · intro h
    apply BitVec.eq_of_toNat_eq
    rw [h, BitVec.toNat_ofNat]
    omega

/-- The comparison bit of two words, converted, is `1` when they are equal and `0` otherwise. -/
theorem bit_val (a b : BitVec 32) :
    ((((IntOp.cmpi .eq a b).toNat : ℝ) : EReal)) = if a = b then 1 else 0 := by
  by_cases h : a = b
  · subst h
    simp [IntOp.cmpi]
  · simp [IntOp.cmpi, h]

/-- The comparison mask of the transposed rule words against the membership numbers, converted, read at
    (feature `f`, membership `k`, rule `r`): the comparison of `rules[r, f]` with the word of `k`. -/
theorem mask_apply (rules : S6561x8.Idx → BitVec 32) (f : Fin 8) (k : Fin 3) (r : Fin 6561) :
    (uitofp (F := Ideal) .f32
        (cmpi .eq
          (broadcastInDim S8x3x6561 ![0, 1, 2] bcast_S8x1x6561_S8x3x6561_0_1_2
            (broadcastInDim S8x1x6561 ![0, 2] bcast_S8x6561_S8x1x6561_0_2
              (transpose S8x6561 [1, 0] rules transposes_S6561x8_S8x6561_1_0)))
          (broadcastInDim S8x3x6561 ![0, 1, 2] bcast_S1x3x1_S8x3x6561_0_1_2
            (broadcastInDim S1x3x1 ![1] bcast_S3_S1x3x1_1 (iotaInDim S3 32 0))))) (ix3 f k r)
      = if rules (ix2 r f) = BitVec.ofNat 32 k.val then 1 else 0 := by
  have e1 : broadcastInDim S8x3x6561 ![0, 1, 2] bcast_S8x1x6561_S8x3x6561_0_1_2
      (broadcastInDim S8x1x6561 ![0, 2] bcast_S8x6561_S8x1x6561_0_2
        (transpose S8x6561 [1, 0] rules transposes_S6561x8_S8x6561_1_0)) (ix3 f k r) = rules (ix2 r f) := by
    refine (broadcastInDim_apply _ _ _ (ix3 f k r) (ix3 f (0 : Fin 1) r) ?_).trans ?_
    · intro a
      match a with
      | ⟨0, _⟩ => rfl
      | ⟨1, _⟩ => rfl
      | ⟨2, _⟩ => rfl
    refine (broadcastInDim_apply _ _ _ (ix3 f (0 : Fin 1) r) (ix2 f r) ?_).trans ?_
    · intro a
      match a with
      | ⟨0, _⟩ => rfl
      | ⟨1, _⟩ => rfl
    exact transpose_apply _ _ _ (ix2 f r) (ix2 r f) (by
      intro b
      match b with
      | ⟨0, _⟩ => rfl
      | ⟨1, _⟩ => rfl)
  have e2 : broadcastInDim S8x3x6561 ![0, 1, 2] bcast_S1x3x1_S8x3x6561_0_1_2
      (broadcastInDim S1x3x1 ![1] bcast_S3_S1x3x1_1 (iotaInDim S3 32 0)) (ix3 f k r) = BitVec.ofNat 32 k.val := by
    refine (broadcastInDim_apply _ _ _ (ix3 f k r) (ix3 (0 : Fin 1) k (0 : Fin 1)) ?_).trans ?_
    · intro a
      match a with
      | ⟨0, _⟩ => rfl
      | ⟨1, _⟩ => rfl
      | ⟨2, _⟩ => rfl
    refine (broadcastInDim_apply _ _ _ (ix3 (0 : Fin 1) k (0 : Fin 1)) (ix1 k) ?_).trans ?_
    · intro a
      match a with
      | ⟨0, _⟩ => rfl
    rfl
  refine Eq.trans ?_ (bit_val _ _)
  exact congrArg₂ (fun a b : BitVec 32 => ((((IntOp.cmpi .eq a b).toNat : ℝ) : EReal))) e1 e2

/-- The table as the composed operations on the rule words. -/
theorem V9_eq (c : Dev nD) :
    (V (F := Ideal) m c main_v9 : S24x6656.Idx → EReal) =
      pad S24x6656 ![0, 0] ![0, 95] ![0, 0]
        (shapeCast S24x6561
          (uitofp (F := Ideal) .f32
            (cmpi .eq
              (broadcastInDim S8x3x6561 ![0, 1, 2] bcast_S8x1x6561_S8x3x6561_0_1_2
                (broadcastInDim S8x1x6561 ![0, 2] bcast_S8x6561_S8x1x6561_0_2
                  (transpose S8x6561 [1, 0] (m ((c : Thread nD τ).loc main_arg4) : S6561x8.Idx → BitVec 32)
                    transposes_S6561x8_S8x6561_1_0)))
              (broadcastInDim S8x3x6561 ![0, 1, 2] bcast_S1x3x1_S8x3x6561_0_1_2
                (broadcastInDim S1x3x1 ![1] bcast_S3_S1x3x1_1 (iotaInDim S3 32 0)))))
          shapeCasts_S8x3x6561_S24x6561)
        (sitofp (F := Ideal) .f32 (constantI S_ 32 0#32)) pads_S24x6561_S24x6656_000_0950 h_S_ := by
  dsimp only [V, V0]
  simp only [hostOps0, hostOps0_1, hostOps0_2, hostOps0_3, hostOps0_4, List.flatten_cons, List.flatten_nil,
    List.append_nil, List.cons_append, List.nil_append]
  after_results
  rfl

/-- The padded, reshaped mask read at (row `3·f + k`, column `q`): the mask's entry on the rule columns, the padding
    value `0` beyond them. -/
theorem table_apply (rules : S6561x8.Idx → BitVec 32) (f : Fin 8) (k : Fin 3) (q : Fin 6656) :
    pad S24x6656 ![0, 0] ![0, 95] ![0, 0]
        (shapeCast S24x6561
          (uitofp (F := Ideal) .f32
            (cmpi .eq
              (broadcastInDim S8x3x6561 ![0, 1, 2] bcast_S8x1x6561_S8x3x6561_0_1_2
                (broadcastInDim S8x1x6561 ![0, 2] bcast_S8x6561_S8x1x6561_0_2
                  (transpose S8x6561 [1, 0] rules transposes_S6561x8_S8x6561_1_0)))
              (broadcastInDim S8x3x6561 ![0, 1, 2] bcast_S1x3x1_S8x3x6561_0_1_2
                (broadcastInDim S1x3x1 ![1] bcast_S3_S1x3x1_1 (iotaInDim S3 32 0)))))
          shapeCasts_S8x3x6561_S24x6561)
        (sitofp (F := Ideal) .f32 (constantI S_ 32 0#32)) pads_S24x6561_S24x6656_000_0950 h_S_ (ix2 (trow f k) q)
      = if h : q.val < 6561 then (if rules (ix2 ⟨q.val, h⟩ f) = BitVec.ofNat 32 k.val then 1 else 0) else 0 := by
  by_cases h : q.val < 6561
  · rw [dif_pos h]
    refine (pad_apply_of_inside _ _ _ _ _ _ _ (ix2 (trow f k) q) (ix2 (trow f k) (⟨q.val, h⟩ : Fin 6561)) ?_).trans ?_
    · intro a
      match a with
      | ⟨0, _⟩ => show (trow f k).val = 0 + (trow f k).val * (0 + 1); omega
      | ⟨1, _⟩ => show q.val = 0 + q.val * (0 + 1); omega
    refine (shapeCast_apply _ _ (ix2 (trow f k) (⟨q.val, h⟩ : Fin 6561)) (ix3 f k (⟨q.val, h⟩ : Fin 6561)) ?_).trans ?_
    · rw [Shape.rowMajor_val_three, Shape.rowMajor_val_two]
      show (f.val * 3 + k.val) * 6561 + q.val = (3 * f.val + k.val) * 6561 + q.val
      omega
    exact mask_apply rules f k ⟨q.val, h⟩
  · rw [dif_neg h]
    refine (pad_apply_of_not_inside _ _ _ _ _ _ _ (ix2 (trow f k) q) (1 : Fin 2) ?_).trans ?_
    · intro hin
      have h3 := hin.2.2
      change (q.val - 0) / (0 + 1) < 6561 at h3
      omega
    exact sitofp_zero

/-- The region's fourth operand is the one-hot table of the rule words, when every word names a membership function. -/
theorem table_onehot (c : Dev nD) (hr : InRange (m ((c : Thread nD τ).loc main_arg4))) :
    IsOneHot (m ((c : Thread nD τ).loc main_arg4)) (V (F := Ideal) m c main_v9) := by
  intro f k q
  refine (congrFun (V9_eq m c) (ix2 (trow f k) q)).trans ?_
  refine (table_apply _ f k q).trans ?_
  by_cases h : q.val < 6561
  · rw [dif_pos h, dif_pos h]
    have hw := hr ⟨q.val, h⟩ f
    by_cases hk : mfIdx (m ((c : Thread nD τ).loc main_arg4) (ix2 ⟨q.val, h⟩ f)) = k
    · rw [if_pos hk, if_pos ((word_eq_iff _ hw.1 hw.2 k).mpr hk)]
    · rw [if_neg hk, if_neg (fun e => hk ((word_eq_iff _ hw.1 hw.2 k).mp e))]
  · rw [dif_neg h, dif_neg h]

/-- The padded row-sum vector as the composed operations on the consequents. -/
theorem V12_eq (c : Dev nD) :
    (V (F := Ideal) m c main_v12 : S1x6656.Idx → EReal) =
      shapeCast S1x6656
        (pad S6656 ![0] ![95] ![0]
          (Host.reduceAdd (F := Ideal) (m ((c : Thread nD τ).loc main_arg3) : S6561x9.Idx → EReal)
            (constant (F := Ideal) S_ .f32 0x00000000#32) reducesTo_S6561x9_S6561_d1 h_S_)
          (sitofp (F := Ideal) .f32 (constantI S_ 32 0#32)) pads_S6561_S6656_0950 h_S_)
        shapeCasts_S6656_S1x6656 := by
  dsimp only [V, V0]
  simp only [hostOps0, hostOps0_1, hostOps0_2, hostOps0_3, hostOps0_4, List.flatten_cons, List.flatten_nil,
    List.append_nil, List.cons_append, List.nil_append]
  after_results
  rfl

/-- The host's sum of a consequent row into the literal `0.0`: the row sum. -/
theorem reduce_apply (cons : S6561x9.Idx → EReal) (r : Fin 6561) :
    Host.reduceAdd (F := Ideal) cons (constant (F := Ideal) S_ .f32 0x00000000#32) reducesTo_S6561x9_S6561_d1 h_S_ (ix1 r)
      = rowsum cons r := by
  have hR : S6561x9.Reduces [1] S6561 := by decide
  refine (Ideal.hostReduceAdd_single reducesTo_S6561x9_S6561_d1 hR cons _ (ix1 r)).trans ?_
  unfold rowsum
  refine congrArg₂ (· + ·) rfl ?_
  refine Finset.sum_congr rfl fun j _ => congrArg cons ?_
  funext a
  match a with
  | ⟨0, _⟩ => rfl
  | ⟨1, _⟩ => rfl

/-- The padded, reshaped row sums read at column `q`: the row sum on the rule columns, the padding value `0` beyond. -/
theorem csum_apply (cons : S6561x9.Idx → EReal) (q : Fin 6656) :
    shapeCast S1x6656
        (pad S6656 ![0] ![95] ![0]
          (Host.reduceAdd (F := Ideal) cons (constant (F := Ideal) S_ .f32 0x00000000#32) reducesTo_S6561x9_S6561_d1 h_S_)
          (sitofp (F := Ideal) .f32 (constantI S_ 32 0#32)) pads_S6561_S6656_0950 h_S_)
        shapeCasts_S6656_S1x6656 (ix2 (0 : Fin 1) q)
      = if h : q.val < 6561 then rowsum cons ⟨q.val, h⟩ else 0 := by
  refine (shapeCast_apply _ _ (ix2 (0 : Fin 1) q) (ix1 q) ?_).trans ?_
  · rw [Shape.rowMajor_val_one, Shape.rowMajor_val_two]
    show q.val = 0 * 6656 + q.val
    omega
  by_cases h : q.val < 6561
  · rw [dif_pos h]
    refine (pad_apply_of_inside _ _ _ _ _ _ _ (ix1 q) (ix1 (⟨q.val, h⟩ : Fin 6561)) ?_).trans ?_
    · intro a
      match a with
      | ⟨0, _⟩ => show q.val = 0 + q.val * (0 + 1); omega
    exact reduce_apply cons ⟨q.val, h⟩
  · rw [dif_neg h]
    refine (pad_apply_of_not_inside _ _ _ _ _ _ _ (ix1 q) (0 : Fin 1) ?_).trans ?_
    · intro hin
      have h3 := hin.2.2
      change (q.val - 0) / (0 + 1) < 6561 at h3
      omega
    exact sitofp_zero

/-- The region's fifth operand is the padded vector of the consequents' row sums. -/
theorem csum_rows (c : Dev nD) :
    IsRowSums (m ((c : Thread nD τ).loc main_arg3)) (V (F := Ideal) m c main_v12) := by
  intro q
  refine (congrFun (V12_eq m c) (ix2 (0 : Fin 1) q)).trans ?_
  exact csum_apply _ q

end Cert.KernelIdeal.Table

end
-- ==== Proof.KernelQuot.lean ====
/-
  The body's last piece: the strengths summed along the lanes, against the row-sum vector and alone, and the quotient.
-/
import proofs.«414870_j66477503807887_1_alg».proof.Proof.Spec
import proofs.«414870_j66477503807887_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Anfis

/-- The keepdims column: a length-256 vector cast to a `256 × 1` column reads, at `(p, u)`, the vector at `p`. -/
private theorem col_apply {α : Type} (x : (⟨1, ![256]⟩ : Shape).Idx → α)
    (h : (⟨1, ![256]⟩ : Shape).ShapeCasts ⟨2, ![256, 1]⟩) (p : Fin 256) (u : Fin 1) :
    shapeCast ⟨2, ![256, 1]⟩ x h (ix2 p u) = x (ix1 p) :=
  shapeCast_apply x h _ _ (by
    have hu : u.val = 0 := by omega
    rw [Shape.rowMajor_val_one, Shape.rowMajor_val_two]
    show p.val = p.val * 1 + u.val
    omega)

/-- The lane sum: a `256 × 6656` array summed along its second axis reads, at `p`, the sum of row `p`. -/
private theorem laneSum_apply (src : FVec Ideal S256x6656 .f32) (h : S256x6656.Reduces [1] S256) (hφ : FKind.Formats .f32)
    (hacc : (0x00000000#32 : BitVec 32) = FKind.add.neutral .f32 hφ) (p : Fin 256) :
    multiReduction .add [1] S256 src 0x00000000#32 h hφ hacc (ix1 p) = ∑ q : Fin 6656, src (ix2 p q) := by
  refine (Ideal.multiReduction_add_single src 0x00000000#32 h hφ hacc (ix1 p)).trans ?_
  exact Finset.sum_congr rfl fun q _ => congrArg src (funext fun c => match c with | ⟨0, _⟩ => rfl | ⟨1, _⟩ => rfl)

/-- The literal `0.0` is the extended real zero. -/
private theorem zero32_eq : zero32 = 0 := Ideal.ofBits_zero_f32

/-- Row `p` of the last piece: with `s q = v385[p, q] · (v421[p, q] + v435[p, q] · v434[0, q])` the strength of column
    `q`, it is `(0 + Σ_q s q · v6[0, q]) / ((0 + Σ_q s q) + ε)`. -/
theorem pay1_apply (v6 : FVec Ideal S1x6656 .f32) (v385 v421 : FVec Ideal S256x6656 .f32) (v434 : FVec Ideal S1x6656 .f32)
    (v435 : FVec Ideal S256x6656 .f32) (p : Fin 256) :
    k0_pay1 (F := Ideal) v6 v385 v421 v434 v435 (ix2 p (0 : Fin 1))
      = Ideal.div
          (zero32 + ∑ q : Fin 6656, (v385 (ix2 p q) * (v421 (ix2 p q) + v435 (ix2 p q) * v434 (ix2 (0 : Fin 1) q))) * v6 (ix2 (0 : Fin 1) q))
          ((zero32 + ∑ q : Fin 6656, v385 (ix2 p q) * (v421 (ix2 p q) + v435 (ix2 p q) * v434 (ix2 (0 : Fin 1) q))) + eps32) := by
  have hrow : ∀ (v : FVec Ideal S1x6656 .f32) (q : Fin 6656),
      broadcastTo S256x6656 v broadcasts_S1x6656_S256x6656 (ix2 p q) = v (ix2 (0 : Fin 1) q) :=
    fun v q => broadcastTo_1b_ab_apply v _ p q
  unfold k0_pay1
  simp only [ValueIdx.divf_apply, ValueIdx.addf_apply, ValueIdx.broadcast_apply, col_apply, zero32_eq, zero_add]
  refine congrArg₂ Ideal.div ((laneSum_apply _ _ _ _ p).trans ?_)
    (congrArg (· + eps32) ((laneSum_apply _ _ _ _ p).trans ?_))
  · exact Finset.sum_congr rfl fun q _ => by
      rw [ValueIdx.mulf_apply, ValueIdx.mulf_apply, ValueIdx.addf_apply, ValueIdx.mulf_apply, hrow, hrow]
  · exact Finset.sum_congr rfl fun q _ => by
      rw [ValueIdx.mulf_apply, ValueIdx.addf_apply, ValueIdx.mulf_apply, hrow]

end Cert.KernelIdeal.Body

end
-- ==== Proof.KernelBody.lean ====
/-
  What one grid point's body leaves in the output block, read at a row.
-/
import proofs.«414870_j66477503807887_1_alg».proof.Proof.Spec
import proofs.«414870_j66477503807887_1_alg».proof.Proof.Gen.KernelIdeal.Frame
import proofs.«414870_j66477503807887_1_alg».proof.Proof.KernelQuot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Anfis

/-! ## The layout operations of the body, read at an index -/

section Layout
variable {α : Type}

/-- Column `c` of a `256 × 8` array, as a `256 × 1` array, read at row `p`. -/
theorem col_apply (x : S256x8.Idx → α) (c : Nat) (hc : c < 8) (h : S256x8.Slices ![0, c] S256x1) (p : Fin 256) :
    extractStridedSlice S256x1 ![0, c] x h (ix2 p (0 : Fin 1)) = x (ix2 p (⟨c, hc⟩ : Fin 8)) :=
  extractStridedSlice_apply ![0, c] x h (ix2 p (0 : Fin 1)) (ix2 p (⟨c, hc⟩ : Fin 8)) fun ax =>
    match ax with
    | ⟨0, _⟩ => (Nat.zero_add _).symm
    | ⟨1, _⟩ => rfl

/-- Entry `(a, b)` of an `8 × 3` array, cut out as a `1 × 1` array and extracted. -/
theorem cell_apply (x : S8x3.Idx → α) (a b : Nat) (ha : a < 8) (hb : b < 3) (h : S8x3.Slices ![a, b] S1x1)
    (hp : ∀ k, (![0, 0] : Fin 2 → Nat) k < S1x1.size k) :
    extractAt ![0, 0] (extractStridedSlice S1x1 ![a, b] x h) hp = x (ix2 (⟨a, ha⟩ : Fin 8) (⟨b, hb⟩ : Fin 3)) :=
  extractStridedSlice_apply ![a, b] x h _ (ix2 (⟨a, ha⟩ : Fin 8) (⟨b, hb⟩ : Fin 3)) fun ax =>
    match ax with
    | ⟨0, _⟩ => rfl
    | ⟨1, _⟩ => rfl

/-- Row `r` of a `24 × 6656` array, as a `1 × 6656` array, read at column `q`. -/
theorem row_apply (x : S24x6656.Idx → α) (r : Nat) (hr : r < 24) (h : S24x6656.Slices ![r, 0] S1x6656) (q : Fin 6656) :
    extractStridedSlice S1x6656 ![r, 0] x h (ix2 (0 : Fin 1) q) = x (ix2 (⟨r, hr⟩ : Fin 24) q) :=
  extractStridedSlice_apply ![r, 0] x h (ix2 (0 : Fin 1) q) (ix2 (⟨r, hr⟩ : Fin 24) q) fun ax =>
    match ax with
    | ⟨0, _⟩ => rfl
    | ⟨1, _⟩ => (Nat.zero_add _).symm

/-- A `256 × 1` column broadcast along the lanes, read at `(p, q)`. -/
theorem bcol_apply (v : S256x1.Idx → α) (h : S256x1.Broadcasts S256x6656) (p : Fin 256) (q : Fin 6656) :
    broadcastTo S256x6656 v h (ix2 p q) = v (ix2 p (0 : Fin 1)) :=
  broadcastTo_apply v h (ix2 p q) (ix2 p (0 : Fin 1)) fun ax =>
    match ax with
    | ⟨0, _⟩ => rfl
    | ⟨1, _⟩ => rfl

/-- A `1 × 6656` row broadcast down the rows, read at `(p, q)`. -/
theorem brow_apply (v : S1x6656.Idx → α) (h : S1x6656.Broadcasts S256x6656) (p : Fin 256) (q : Fin 6656) :
    broadcastTo S256x6656 v h (ix2 p q) = v (ix2 (0 : Fin 1) q) :=
  broadcastTo_1b_ab_apply v h p q

end Layout

/-- The exponential of a vector, read at an index. -/
theorem exp_apply {s : Shape} {φ : FTy} (v : FVec Ideal s φ) (i : s.Idx) : exp v i = Ideal.exp (v i) := rfl

/-- The table block recast to its own shape is itself. -/
theorem pay2_eq (v3 : Vec Ideal S24x6656 .f32) : k0_pay2 (F := Ideal) v3 = v3 := shapeCast_self v3 _

/-- The row-sum block recast to its own shape is itself. -/
theorem pay3_eq (v5 : Vec Ideal S1x6656 .f32) : k0_pay3 (F := Ideal) v5 = v5 := shapeCast_self v5 _

/-! ## The accumulator chain, one feature at a time

Each part multiplies the running product by one feature's mixture. The first two memberships of the feature are mixed
into `0` in the part before; the third is finished in the part itself from whatever the part boundary carried across. -/

/-- The accumulator starts at `1`. -/
theorem pay4_apply (p : Fin 256) (q : Fin 6656) : k0_pay4 (F := Ideal) (ix2 p q) = one32 := rfl

/-- Feature 0: the first two memberships are mixed in one part, the third in the next, its centre carried across as a `1 × 1` slice. -/
theorem stage0 (x0 : Vec Ideal S256x8 .f32) (x1 x2 : Vec Ideal S8x3 .f32) (x3 : Vec Ideal S24x6656 .f32)
    (v7 : FVec Ideal S256x6656 .f32) (p : Fin 256) (q : Fin 6656) :
    k0_pay8 (F := Ideal) x2 x3 v7 (k0_pay5 x0) (k0_pay6 x0 x1 x2 x3) (k0_pay7 x1) (ix2 p q)
      = v7 (ix2 p q) * mix (fun f => x0 (ix2 p f)) x1 x2 x3 q 0 := by
  unfold k0_pay8 k0_pay6 k0_pay7 k0_pay5
  simp only [pay2_eq, mulf_apply, addf_apply, subf_apply, divf_apply, broadcast_apply, exp_apply, bcol_apply, brow_apply,
    col_apply _ 0 (by decide), cell_apply _ 0 0 (by decide) (by decide), cell_apply _ 0 1 (by decide) (by decide), cell_apply _ 0 2 (by decide) (by decide), row_apply _ 0 (by decide), row_apply _ 1 (by decide), row_apply _ 2 (by decide)]
  rfl

/-- Feature 1: the third membership's centre is carried across as a broadcast column. -/
theorem stage1 (x0 : Vec Ideal S256x8 .f32) (x1 x2 : Vec Ideal S8x3 .f32) (x3 : Vec Ideal S24x6656 .f32)
    (v61 : FVec Ideal S256x6656 .f32) (p : Fin 256) (q : Fin 6656) :
    k0_pay12 (F := Ideal) x2 x3 v61 (k0_pay9 x0) (k0_pay10 x0 x1 x2 x3) (k0_pay11 x1) (ix2 p q)
      = v61 (ix2 p q) * mix (fun f => x0 (ix2 p f)) x1 x2 x3 q 1 := by
  unfold k0_pay12 k0_pay10 k0_pay11 k0_pay9
  simp only [pay2_eq, mulf_apply, addf_apply, subf_apply, divf_apply, broadcast_apply, exp_apply, bcol_apply, brow_apply,
    col_apply _ 1 (by decide), cell_apply _ 1 0 (by decide) (by decide), cell_apply _ 1 1 (by decide) (by decide), cell_apply _ 1 2 (by decide) (by decide), row_apply _ 3 (by decide), row_apply _ 4 (by decide), row_apply _ 5 (by decide)]
  rfl

/-- Feature 2: the third membership's difference `x - μ` and its width's `1 × 1` slice are carried across. -/
theorem stage2 (x0 : Vec Ideal S256x8 .f32) (x1 x2 : Vec Ideal S8x3 .f32) (x3 : Vec Ideal S24x6656 .f32)
    (v115 : FVec Ideal S256x6656 .f32) (p : Fin 256) (q : Fin 6656) :
    k0_pay17 (F := Ideal) x3 v115 (k0_pay14 x0 x1 x2 x3) (k0_pay15 x0 x1) (k0_pay16 x2) (ix2 p q)
      = v115 (ix2 p q) * mix (fun f => x0 (ix2 p f)) x1 x2 x3 q 2 := by
  unfold k0_pay17 k0_pay14 k0_pay15 k0_pay16 k0_pay13
  simp only [pay2_eq, mulf_apply, addf_apply, subf_apply, divf_apply, broadcast_apply, exp_apply, bcol_apply, brow_apply,
    col_apply _ 2 (by decide), cell_apply _ 2 0 (by decide) (by decide), cell_apply _ 2 1 (by decide) (by decide), cell_apply _ 2 2 (by decide) (by decide), row_apply _ 6 (by decide), row_apply _ 7 (by decide), row_apply _ 8 (by decide)]
  rfl

/-- Feature 3: the third membership's difference `x - μ` and its width as a broadcast column are carried across. -/
theorem stage3 (x0 : Vec Ideal S256x8 .f32) (x1 x2 : Vec Ideal S8x3 .f32) (x3 : Vec Ideal S24x6656 .f32)
    (v169 : FVec Ideal S256x6656 .f32) (p : Fin 256) (q : Fin 6656) :
    k0_pay22 (F := Ideal) x3 v169 (k0_pay19 x0 x1 x2 x3) (k0_pay20 x0 x1) (k0_pay21 x2) (ix2 p q)
      = v169 (ix2 p q) * mix (fun f => x0 (ix2 p f)) x1 x2 x3 q 3 := by
  unfold k0_pay22 k0_pay19 k0_pay20 k0_pay21 k0_pay18
  simp only [pay2_eq, mulf_apply, addf_apply, subf_apply, divf_apply, broadcast_apply, exp_apply, bcol_apply, brow_apply,
    col_apply _ 3 (by decide), cell_apply _ 3 0 (by decide) (by decide), cell_apply _ 3 1 (by decide) (by decide), cell_apply _ 3 2 (by decide) (by decide), row_apply _ 9 (by decide), row_apply _ 10 (by decide), row_apply _ 11 (by decide)]
  rfl

/-- Feature 4: the third membership's squared quotient is carried across. -/
theorem stage4 (x0 : Vec Ideal S256x8 .f32) (x1 x2 : Vec Ideal S8x3 .f32) (x3 : Vec Ideal S24x6656 .f32)
    (v223 : FVec Ideal S256x6656 .f32) (p : Fin 256) (q : Fin 6656) :
    k0_pay26 (F := Ideal) x3 v223 (k0_pay24 x0 x1 x2 x3) (k0_pay25 x0 x1 x2) (ix2 p q)
      = v223 (ix2 p q) * mix (fun f => x0 (ix2 p f)) x1 x2 x3 q 4 := by
  unfold k0_pay26 k0_pay24 k0_pay25 k0_pay23
  simp only [pay2_eq, mulf_apply, addf_apply, subf_apply, divf_apply, broadcast_apply, exp_apply, bcol_apply, brow_apply,
    col_apply _ 4 (by decide), cell_apply _ 4 0 (by decide) (by decide), cell_apply _ 4 1 (by decide) (by decide), cell_apply _ 4 2 (by decide) (by decide), row_apply _ 12 (by decide), row_apply _ 13 (by decide), row_apply _ 14 (by decide)]
  rfl

/-- Feature 5: the third membership's squared quotient and the constant `-1/2` column are carried across. -/
theorem stage5 (x0 : Vec Ideal S256x8 .f32) (x1 x2 : Vec Ideal S8x3 .f32) (x3 : Vec Ideal S24x6656 .f32)
    (v277 : FVec Ideal S256x6656 .f32) (p : Fin 256) (q : Fin 6656) :
    k0_pay31 (F := Ideal) x3 v277 (k0_pay28 x0 x1 x2 x3) (k0_pay29 x0 x1 x2) (k0_pay30 (F := Ideal)) (ix2 p q)
      = v277 (ix2 p q) * mix (fun f => x0 (ix2 p f)) x1 x2 x3 q 5 := by
  unfold k0_pay31 k0_pay28 k0_pay29 k0_pay30 k0_pay27
  simp only [pay2_eq, mulf_apply, addf_apply, subf_apply, divf_apply, broadcast_apply, exp_apply, bcol_apply, brow_apply,
    col_apply _ 5 (by decide), cell_apply _ 5 0 (by decide) (by decide), cell_apply _ 5 1 (by decide) (by decide), cell_apply _ 5 2 (by decide) (by decide), row_apply _ 15 (by decide), row_apply _ 16 (by decide), row_apply _ 17 (by decide)]
  rfl

/-- Feature 6: the third membership itself is carried across. -/
theorem stage6 (x0 : Vec Ideal S256x8 .f32) (x1 x2 : Vec Ideal S8x3 .f32) (x3 : Vec Ideal S24x6656 .f32)
    (v331 : FVec Ideal S256x6656 .f32) (p : Fin 256) (q : Fin 6656) :
    k0_pay35 (F := Ideal) x3 v331 (k0_pay33 x0 x1 x2 x3) (k0_pay34 x0 x1 x2) (ix2 p q)
      = v331 (ix2 p q) * mix (fun f => x0 (ix2 p f)) x1 x2 x3 q 6 := by
  unfold k0_pay35 k0_pay33 k0_pay34 k0_pay32
  simp only [pay2_eq, mulf_apply, addf_apply, subf_apply, divf_apply, broadcast_apply, exp_apply, bcol_apply, brow_apply,
    col_apply _ 6 (by decide), cell_apply _ 6 0 (by decide) (by decide), cell_apply _ 6 1 (by decide) (by decide), cell_apply _ 6 2 (by decide) (by decide), row_apply _ 18 (by decide), row_apply _ 19 (by decide), row_apply _ 20 (by decide)]
  rfl

/-- Feature 7: the last part hands its partial mixture, the third membership broadcast along the lanes and the third
    table row to the final piece, which finishes the mixture itself. -/
theorem stage7 (x0 : Vec Ideal S256x8 .f32) (x1 x2 : Vec Ideal S8x3 .f32) (x3 : Vec Ideal S24x6656 .f32) (p : Fin 256) (q : Fin 6656) :
    k0_pay37 (F := Ideal) x0 x1 x2 x3 (ix2 p q) + k0_pay39 (F := Ideal) x0 x1 x2 (ix2 p q) * k0_pay38 (F := Ideal) x3 (ix2 (0 : Fin 1) q)
      = mix (fun f => x0 (ix2 p f)) x1 x2 x3 q 7 := by
  unfold k0_pay37 k0_pay39 k0_pay38 k0_pay36
  simp only [pay2_eq, mulf_apply, addf_apply, subf_apply, divf_apply, broadcast_apply, exp_apply, bcol_apply, brow_apply,
    col_apply _ 7 (by decide), cell_apply _ 7 0 (by decide) (by decide), cell_apply _ 7 1 (by decide) (by decide), cell_apply _ 7 2 (by decide) (by decide), row_apply _ 21 (by decide), row_apply _ 22 (by decide), row_apply _ 23 (by decide)]
  rfl

/-- Row `p` of the output block is the kernel's quotient for row `p` of the feature block, over the table block `x3`
    and the row-sum block `x4`. -/
theorem out0_5_apply (x0 : Vec Ideal S256x8 .f32) (x1 x2 : Vec Ideal S8x3 .f32) (x3 : Vec Ideal S24x6656 .f32)
    (x4 : Vec Ideal S1x6656 .f32) (p : Fin 256) :
    out0_5 (F := Ideal) x0 x1 x2 x3 x4 (ix2 p (0 : Fin 1)) = blockOut (fun f => x0 (ix2 p f)) x1 x2 x3 x4 := by
  have hz : (![0, 0] : Fin 2 → Nat) = fun _ => 0 := funext fun a => by fin_cases a <;> rfl
  unfold out0_5
  rw [View.canon_unit_zero hz]
  simp only [View.ld_unit_zero (S := S256x8) hz, View.ld_unit_zero (S := S8x3) hz, View.ld_unit_zero (S := S24x6656) hz,
    View.ld_unit_zero (S := S1x6656) hz, pay2_eq, pay3_eq]
  refine (pay1_apply _ _ _ _ _ p).trans ?_
  simp only [stage7, stage6, stage5, stage4, stage3, stage2, stage1, stage0, pay4_apply]
  rfl

end Cert.KernelIdeal.Body

end
-- ==== Proof.KernelValue.lean ====
/-
  The kernel's result as one function of the arguments.

  The grid has 32 points; point `t` stages rows `256 t … 256 t + 255` of the features, the whole centre and width
  tables, the whole one-hot table and the whole row-sum vector, and writes rows `256 t … 256 t + 255` of the one
  output column. Row `p` of what it writes is the kernel's quotient (`Cert.Anfis.blockOut`) for feature row
  `256 t + p`; the 32 blocks tile the column, and the line after the region lays the column out as a vector.
-/
import proofs.«414870_j66477503807887_1_alg».proof.Proof.Spec
import proofs.«414870_j66477503807887_1_alg».proof.Proof.KernelBody
import proofs.«414870_j66477503807887_1_alg».proof.Proof.Gen.KernelIdeal.Frame
import proofs.«414870_j66477503807887_1_alg».proof.Proof.Gen.KernelIdeal.Points
import Idealize.ShloMosaic.Lib.Pipeline.Value
import Idealize.ShloMosaic.Lib.ValueIdx
import Idealize.ShloMosaic.Lib.StableHlo.Run
import Idealize.ShloMosaic.Lib.Tactic

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx Cert.Anfis
open Idealize.ShloMosaic.Pipeline (Dat)

variable (m : (ℓ : Loc nD τ sig) → Buf (Elt Ideal) ℓ) (ρ : Dev nD → PrngReg)

/-- Where each window's block sits at point `t`: the features' and the output's on block row `t`, the four
    resident operands' at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 32 :=
  calc t.val < cfg0.N := t.isLt
    _ = 32 := N_0

/-- Row `p`, feature `f` of the feature block at point `t` is row `256 t + p` of the feature array. -/
theorem iblk0_apply (c : Dev nD) (t : Fin cfg0.N) (p : Fin 256) (f : Fin 8) :
    (iblk m c 0 t : Vec Ideal S256x8 .f32) (ix2 p f)
      = (m ((c : Thread nD τ).loc main_arg0) : S8192x8.Idx → EReal) (ix2 ⟨256 * t.val + p.val, by have := t_lt t; omega⟩ f) := by
  obtain ⟨e0, e1, -⟩ := idx_facts t
  unfold iblk
  rw [View.read_apply]
  refine (congrFun (V_main_arg0 m c) _).trans ?_
  congr 1
  funext a
  apply Fin.ext
  match a with
  | ⟨0, _⟩ => show win0_0.index t (0 : Fin 2) * 256 + 1 * p.val = 256 * t.val + p.val; rw [e0]; omega
  | ⟨1, _⟩ => show win0_0.index t (1 : Fin 2) * 8 + 1 * f.val = f.val; rw [e1]; omega

/-- The centre table's block at any point is the whole table. -/
theorem iblk1_eq (c : Dev nD) (t : Fin cfg0.N) :
    (iblk m c 1 t : Vec Ideal S8x3 .f32) = (m ((c : Thread nD τ).loc main_arg1) : S8x3.Idx → EReal) := by
  obtain ⟨-, -, e0, e1, -⟩ := idx_facts t
  funext y
  unfold iblk
  rw [View.read_apply]
  refine (congrFun (V_main_arg1 m c) _).trans ?_
  congr 1
  funext a
  apply Fin.ext
  match a with
  | ⟨0, _⟩ => show win0_1.index t (0 : Fin 2) * 8 + 1 * (y 0).val = (y 0).val; rw [e0]; omega
  | ⟨1, _⟩ => show win0_1.index t (1 : Fin 2) * 3 + 1 * (y 1).val = (y 1).val; rw [e1]; omega

/-- The width table's block at any point is the whole table. -/
theorem iblk2_eq (c : Dev nD) (t : Fin cfg0.N) :
    (iblk m c 2 t : Vec Ideal S8x3 .f32) = (m ((c : Thread nD τ).loc main_arg2) : S8x3.Idx → EReal) := by
  obtain ⟨-, -, -, -, e0, e1, -⟩ := idx_facts t
  funext y
  unfold iblk
  rw [View.read_apply]
  refine (congrFun (V_main_arg2 m c) _).trans ?_
  congr 1
  funext a
  apply Fin.ext
  match a with
  | ⟨0, _⟩ => show win0_2.index t (0 : Fin 2) * 8 + 1 * (y 0).val = (y 0).val; rw [e0]; omega
  | ⟨1, _⟩ => show win0_2.index t (1 : Fin 2) * 3 + 1 * (y 1).val = (y 1).val; rw [e1]; omega

/-- The one-hot table's block at any point is the whole table as the region finds it. -/
theorem iblk3_eq (c : Dev nD) (t : Fin cfg0.N) :
    (iblk m c 3 t : Vec Ideal S24x6656 .f32) = (V m c main_v9 : S24x6656.Idx → EReal) := by
  obtain ⟨-, -, -, -, -, -, e0, e1, -⟩ := idx_facts t
  funext y
  unfold iblk
  rw [View.read_apply]
  show V m c main_v9 _ = V m c main_v9 y
  congr 1
  funext a
  apply Fin.ext
  match a with
  | ⟨0, _⟩ => show win0_3.index t (0 : Fin 2) * 24 + 1 * (y 0).val = (y 0).val; rw [e0]; omega
  | ⟨1, _⟩ => show win0_3.index t (1 : Fin 2) * 6656 + 1 * (y 1).val = (y 1).val; rw [e1]; omega

/-- The row-sum vector's block at any point is the whole vector as the region finds it. -/
theorem iblk4_eq (c : Dev nD) (t : Fin cfg0.N) :
    (iblk m c 4 t : Vec Ideal S1x6656 .f32) = (V m c main_v12 : S1x6656.Idx → EReal) := by
  obtain ⟨-, -, -, -, -, -, -, -, e0, e1, -⟩ := idx_facts t
  funext y
  unfold iblk
  rw [View.read_apply]
  show V m c main_v12 _ = V m c main_v12 y
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 6656 + 1 * (y 1).val = (y 1).val; rw [e1]; omega

/-- The output column: entry `b` is the kernel's quotient for feature row `b`. -/
def colOut (c : Dev nD) : S8192x1.Idx → EReal := fun i =>
  blockOut (fun f => (m ((c : Thread nD τ).loc main_arg0) : S8192x8.Idx → EReal) (ix2 ⟨(i 0).val, idx2_lt0 i⟩ f))
    (m ((c : Thread nD τ).loc main_arg1)) (m ((c : Thread nD τ).loc main_arg2)) (V m c main_v9) (V m c main_v12)

/-- What point `t` writes back is block `t` of the output column. -/
theorem flushed5_eq (c : Dev nD) (t : Fin cfg0.N) :
    (dats m 0 c).flushed 5 t = ((cfg0.win 5).blk t).view.read (Elt Ideal) (colOut m c) := by
  show (cfg0.win 5).cut (grid0.coords t) ((dats m 0 c).after 5 t) = _
  rw [after0_5]
  obtain ⟨-, -, -, -, -, -, -, -, -, -, e50, -⟩ := idx_facts t
  refine funext fun (j : S256x1.Idx) => ?_
  obtain ⟨p, q, rfl⟩ : ∃ (p : Fin 256) (q : Fin 1), j = ix2 p q := ⟨j 0, j 1, eq_ix2 j⟩
  obtain rfl : q = 0 := Subsingleton.elim _ _
  rw [View.read_apply]
  show out0_5 (F := Ideal) (iblk m c 0 t) (iblk m c 1 t) (iblk m c 2 t) (iblk m c 3 t) (iblk m c 4 t) (ix2 p (0 : Fin 1))
    = colOut m c (((cfg0.win 5).blk t).view.emb (ix2 p (0 : Fin 1)))
  refine (Body.out0_5_apply (iblk m c 0 t) (iblk m c 1 t) (iblk m c 2 t) (iblk m c 3 t) (iblk m c 4 t) p).trans ?_
  have h0 : (fun f : Fin 8 => (iblk m c 0 t : Vec Ideal S256x8 .f32) (ix2 p f))
      = fun f : Fin 8 => (m ((c : Thread nD τ).loc main_arg0) : S8192x8.Idx → EReal)
          (ix2 ⟨256 * t.val + p.val, by have := t_lt t; omega⟩ f) :=
    funext fun f => iblk0_apply m c t p f
  rw [h0, iblk1_eq, iblk2_eq, iblk3_eq, iblk4_eq]
  unfold colOut
  have hrow : (⟨256 * t.val + p.val, by have := t_lt t; omega⟩ : Fin 8192)
      = ⟨((((cfg0.win 5).blk t).view.emb (ix2 p (0 : Fin 1))) 0).val, idx2_lt0 _⟩ :=
    Fin.ext (by show 256 * t.val + p.val = win0_5.index t (0 : Fin 2) * 256 + 1 * p.val; rw [e50]; omega)
  rw [hrow]

/-- An index of the output column is in point `t`'s block iff each coordinate is in the block's range on its axis. -/
theorem mem_blk5 (t : Fin cfg0.N) (i : S8192x1.Idx) :
    i ∈ ((cfg0.win 5).blk t).view.set ↔ ∀ a : Fin 2, win0_5.index t a * S256x1.size a ≤ (i a).val
      ∧ (i a).val < win0_5.index t a * S256x1.size a + S256x1.size a := by
  show i ∈ ((View.whole main_v13).slice (win0_5.rect t)).set ↔ _
  rw [View.set_slice_whole, Rect.mem_set_unit]
  exact Iff.rfl

/-- The 32 blocks tile the column (row `r` lies in block `r / 256`), so after the region it holds `colOut`. -/
theorem final5 (c : Dev nD) : (dats m 0 c).arrAt 5 cfg0.N = colOut m c :=
  (dats m 0 c).arrAt_eq_of_cover 5 (colOut m c) (fun t _ => flushed5_eq m c t) fun (i : S8192x1.Idx) => by
    have hi0 : (i 0).val < 8192 := idx2_lt0 i
    have hi1 : (i 1).val < 1 := idx2_lt1 i
    have hN : (i 0).val / 256 < cfg0.N := by rw [show cfg0.N = 32 from N_0]; omega
    obtain ⟨-, -, -, -, -, -, -, -, -, -, e50, e51⟩ := idx_facts ⟨(i 0).val / 256, hN⟩
    refine ⟨⟨(i 0).val / 256, hN⟩, flush0_5 _, ?_⟩
    rw [mem_blk5]
    intro a
    match a with
    | ⟨0, _⟩ =>
      show win0_5.index ⟨(i 0).val / 256, hN⟩ (0 : Fin 2) * 256 ≤ (i 0).val
        ∧ (i 0).val < win0_5.index ⟨(i 0).val / 256, hN⟩ (0 : Fin 2) * 256 + 256
      rw [e50]; show (i 0).val / 256 * 256 ≤ (i 0).val ∧ (i 0).val < (i 0).val / 256 * 256 + 256; omega
    | ⟨1, _⟩ =>
      show win0_5.index ⟨(i 0).val / 256, hN⟩ (1 : Fin 2) * 1 ≤ (i 1).val
        ∧ (i 1).val < win0_5.index ⟨(i 0).val / 256, hN⟩ (1 : Fin 2) * 1 + 1
      rw [e51]; omega

/-- A vector index's one coordinate is below 8192. -/
theorem row_lt (i : S8192.Idx) : (i 0).val < 8192 := (i 0).isLt

/-- The result vector: entry `b` is the kernel's quotient for feature row `b`. -/
def result (c : Dev nD) : S8192.Idx → EReal := fun i =>
  blockOut (fun f => (m ((c : Thread nD τ).loc main_arg0) : S8192x8.Idx → EReal) (ix2 ⟨(i 0).val, row_lt i⟩ f))
    (m ((c : Thread nD τ).loc main_arg1)) (m ((c : Thread nD τ).loc main_arg2)) (V m c main_v9) (V m c main_v12)

/-- Entry `b` of the result vector. -/
theorem result_apply (c : Dev nD) (b : Fin 8192) :
    result m c (ix1 b)
      = blockOut (fun f => (m ((c : Thread nD τ).loc main_arg0) : S8192x8.Idx → EReal) (ix2 b f))
          (m ((c : Thread nD τ).loc main_arg1)) (m ((c : Thread nD τ).loc main_arg2)) (V m c main_v9) (V m c main_v12) := rfl

/-- The line after the region lays the output column out as a vector. -/
theorem tail_eq (c : Dev nD) :
    Pipeline.afterTail₀ cfgs (dats m) 0 (V0 m) [hostOps1] c main_v14 = result m c := by
  unfold Pipeline.afterTail₀
  show StableHlo.after hostOps1 _ (Proc.devRef .tc main_v14) = _
  after_results
  funext i
  have hW : Pipeline.withArrays (cfgs 0).spec c (V0 m c) (fun w => (dats m 0 c).arrAt w (cfgs 0).N)
      (Proc.tc.devRef main_v13) = colOut m c :=
    (Pipeline.withArrays_arr spec0 launch0.win.arr_inj c _ _ 5).trans (final5 m c)
  show shapeCast S8192 (Pipeline.withArrays (cfgs 0).spec c (V0 m c) (fun w => (dats m 0 c).arrAt w (cfgs 0).N)
      (Proc.tc.devRef main_v13)) shapeCasts_S8192x1_S8192 i = _
  rw [hW]
  refine (shapeCast_apply (colOut m c) shapeCasts_S8192x1_S8192 i (ix2 ⟨(i 0).val, row_lt i⟩ (0 : Fin 1)) ?_).trans ?_
  · rw [Shape.rowMajor_val_two, Shape.rowMajor_val_one]
    show (i 0).val * 1 + 0 = (i 0).val
    omega
  · rfl

/-- The run, read: the result vector at the kernel's quotient row by row, the arguments unchanged. -/
theorem run : θ_run defs (onTc (τ := τ) (main (F := Ideal))) ⟨m, fun _ => 0, ρ⟩ fun r => ∀ c : Dev nD,
      r.2.mem ((c : Thread nD τ).loc main_v14) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v14 (Pipeline.mem_restRefs_of main_v14 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KValue

end
-- ==== Proof.LibGatherCol.lean ====
import Idealize.ShloMosaic.PureOps.ShapeOps
import Idealize.ShloMosaic.Lib.ValueIdx

/-! # A gather that takes columns of a table, read at an index

`Host.gather d x idx j = x (d.operandIdx j idx)`: on each operand axis the operand index is the clamped start plus the
batching coordinate plus the offset coordinate. Worked out here, at any extents, for the columns of a rank-2 table
(`x[:, idx]`): operand `[R, N]`, start indices `[K, 1]` (the index vector on axis 1), result `[R, K]`; the column axis is
gathered (collapsed, one column per start index) and the row axis is the one offset axis, read whole. Result entry
`(r, k)` is the table's entry `(r, c)` with `c` the start index `idx[k, 0]` read as a SIGNED integer and CLAMPED into
`[0, N − 1]` (`gather_colTake_apply`); for a start index already inside the table the clamp does nothing
(`gather_colTake_apply_of_lt`). Both are stated for ANY dimension-number record with these fields, the field equations
taken as hypotheses (each is `rfl` at a literal record), and again at the literal record `colTakeDims`. -/

namespace Idealize.ShloMosaic.GatherCol

open Idealize.ShloMosaic Idealize.ShloMosaic.ValueIdx

/-- A signed word that is non-negative and below `N`, clamped into `[0, N - 1]`, is its own value. -/
theorem clamp_of_lt {w : Nat} (v : BitVec w) {N : Nat} (h0 : 0 ≤ v.toInt) (hN : v.toInt < (N : Int)) :
    min v.toInt.toNat (N - 1) = v.toInt.toNat := by
  apply Nat.min_eq_left
  omega

section
variable {α : Type}

/-- The dimension numbers of a column take: operand `[R, N]`, start indices `[K, 1]`, result `[R, K]`; axis 1 of the
    operand is gathered (collapsed, slice size 1), axis 0 is the offset axis (slice size `R`), read by the result's
    axis 0. Their conditions `wf` are decided on a program's literal shapes. -/
abbrev colTakeDims (R N K : Nat)
    (wf : GatherDims.WF ⟨2, ![R, N]⟩ ⟨2, ![K, 1]⟩ ⟨2, ![R, K]⟩ [0] [1] [] [1] [] 1 ![R, 1]) :
    GatherDims ⟨2, ![R, N]⟩ ⟨2, ![K, 1]⟩ ⟨2, ![R, K]⟩ where
  offsetDims := [0]
  collapsedSliceDims := [1]
  operandBatchingDims := []
  startIndicesBatchingDims := []
  startIndexMap := [1]
  indexVectorDim := 1
  sliceSizes := ![R, 1]
  wf := wf

/-- The operand index of a column take on the column axis: the start index `idx[k, 0]` read signed and clamped into
    `[0, N − 1]` (the axis is in the start index map, its slice size is `1`), with no batching and no offset coordinate
    (the axis is collapsed). -/
theorem operandIdx_col {R N K w : Nat}
    (wf : GatherDims.WF ⟨2, ![R, N]⟩ ⟨2, ![K, 1]⟩ ⟨2, ![R, K]⟩ [0] [1] [] [1] [] 1 ![R, 1])
    (idx : IVec ⟨2, ![K, 1]⟩ w) (r : Fin R) (k : Fin K) :
    (colTakeDims R N K wf).start (ix2 r k) idx (1 : Fin 2) + (colTakeDims R N K wf).batchCoord (ix2 r k) (1 : Fin 2)
      + (colTakeDims R N K wf).offCoord (ix2 r k) (1 : Fin 2) = min (idx (ix2 k (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (colTakeDims R N K wf).startIndexMap from List.mem_singleton.mpr rfl)]
  have hsi : (colTakeDims R N K wf).siIdx (ix2 r k) ⟨List.idxOf (1 : Fin 2) (colTakeDims R N K wf).startIndexMap,
      List.idxOf_lt_length_iff.2 (List.mem_singleton.mpr rfl)⟩ = ix2 k (0 : Fin 1) := by
    funext e; refine Fin.ext ?_
    match e with
    | ⟨0, _⟩ => rfl
    | ⟨1, _⟩ => rfl
  rw [hsi]
  rfl

/-- The operand index of a column take on the row axis: the result's own row `r` (the axis is the one the offset axis
    reads), with start `0` (the start index map does not name the axis) and no batching coordinate. -/
theorem operandIdx_row {R N K w : Nat}
    (wf : GatherDims.WF ⟨2, ![R, N]⟩ ⟨2, ![K, 1]⟩ ⟨2, ![R, K]⟩ [0] [1] [] [1] [] 1 ![R, 1])
    (idx : IVec ⟨2, ![K, 1]⟩ w) (r : Fin R) (k : Fin K) :
    (colTakeDims R N K wf).start (ix2 r k) idx (0 : Fin 2) + (colTakeDims R N K wf).batchCoord (ix2 r k) (0 : Fin 2)
      + (colTakeDims R N K wf).offCoord (ix2 r k) (0 : Fin 2) = r.val := by
  have h01 : (0 : Fin 2) ∉ [(1 : Fin 2)] := by decide
  have hst : (colTakeDims R N K wf).start (ix2 r k) idx (0 : Fin 2) = 0 := by
    unfold GatherDims.start
    rw [dif_neg (show ¬ (0 : Fin 2) ∈ (colTakeDims R N K wf).startIndexMap from h01)]
  have hoff : (colTakeDims R N K wf).offCoord (ix2 r k) (0 : Fin 2) = r.val := by
    unfold GatherDims.offCoord
    rw [dif_pos ((GatherDims.mem_sKept _ _).mpr ⟨h01, List.not_mem_nil⟩)]
    rfl
  rw [GatherDims.batchCoord_eq_zero _ _ _ List.not_mem_nil, hst, hoff, Nat.add_zero, Nat.zero_add]

/-- THE COLUMN TAKE AT THE LITERAL RECORD, READ AT `(r, k)`: the operand's entry `(r, c)`, `c` the start index
    `idx[k, 0]` read signed and clamped into `[0, N − 1]`: the operand index coordinate by coordinate. -/
theorem gather_colTakeDims_apply {R N K w : Nat} (hN : 0 < N)
    (wf : GatherDims.WF ⟨2, ![R, N]⟩ ⟨2, ![K, 1]⟩ ⟨2, ![R, K]⟩ [0] [1] [] [1] [] 1 ![R, 1])
    (x : (⟨2, ![R, N]⟩ : Shape).Idx → α) (idx : IVec ⟨2, ![K, 1]⟩ w) (r : Fin R) (k : Fin K) :
    Host.gather (colTakeDims R N K wf) x idx (ix2 r k)
      = x (ix2 r ⟨min (idx (ix2 k (0 : Fin 1))).toInt.toNat (N - 1), by omega⟩) := by
  unfold Host.gather
  congr 1
  funext a
  refine Fin.ext ?_
  match a with
  | ⟨0, _⟩ => exact operandIdx_row wf idx r k
  | ⟨1, _⟩ => exact operandIdx_col wf idx r k

/-- THE COLUMN TAKE AT ANY RECORD WITH THESE FIELDS, READ AT `(r, k)`: a record is its fields, so it is the literal
    one. -/
theorem gather_colTake_apply {R N K w : Nat} (hN : 0 < N)
    (d : GatherDims ⟨2, ![R, N]⟩ ⟨2, ![K, 1]⟩ ⟨2, ![R, K]⟩)
    (ho : d.offsetDims = [0]) (hc : d.collapsedSliceDims = [1]) (hb : d.operandBatchingDims = [])
    (hsb : d.startIndicesBatchingDims = []) (hm : d.startIndexMap = [1]) (hv : d.indexVectorDim = 1)
    (hs : d.sliceSizes = ![R, 1])
    (x : (⟨2, ![R, N]⟩ : Shape).Idx → α) (idx : IVec ⟨2, ![K, 1]⟩ w) (r : Fin R) (k : Fin K) :
    Host.gather d x idx (ix2 r k)
      = x (ix2 r ⟨min (idx (ix2 k (0 : Fin 1))).toInt.toNat (N - 1), by omega⟩) := by
  obtain ⟨od, cd, ob, sb, sm, iv, ss, wf⟩ := d
  simp only at ho hc hb hsb hm hv hs
  subst ho hc hb hsb hm hv hs
  exact gather_colTakeDims_apply hN wf x idx r k

/-- The same for a start index inside the table: the clamp does nothing, and the column read is the one the index
    names. -/
theorem gather_colTake_apply_of_lt {R N K w : Nat}
    (d : GatherDims ⟨2, ![R, N]⟩ ⟨2, ![K, 1]⟩ ⟨2, ![R, K]⟩)
    (ho : d.offsetDims = [0]) (hc : d.collapsedSliceDims = [1]) (hb : d.operandBatchingDims = [])
    (hsb : d.startIndicesBatchingDims = []) (hm : d.startIndexMap = [1]) (hv : d.indexVectorDim = 1)
    (hs : d.sliceSizes = ![R, 1])
    (x : (⟨2, ![R, N]⟩ : Shape).Idx → α) (idx : IVec ⟨2, ![K, 1]⟩ w) (r : Fin R) (k : Fin K)
    (h0 : 0 ≤ (idx (ix2 k (0 : Fin 1))).toInt) (hlt : (idx (ix2 k (0 : Fin 1))).toInt < (N : Int)) :
    Host.gather d x idx (ix2 r k) = x (ix2 r ⟨(idx (ix2 k (0 : Fin 1))).toInt.toNat, by omega⟩) := by
  rw [gather_colTake_apply (by omega) d ho hc hb hsb hm hv hs x idx r k]
  congr 2
  exact Fin.ext (clamp_of_lt _ h0 hlt)

end

end Idealize.ShloMosaic.GatherCol
-- ==== Proof.RefStages.lean ====
/-
  The reference program's stages, read one at a time at an index (this module opens the generated run and
  its read-at-an-index lemmas; the statements about the reference's result live in the modules that import it).
-/
import proofs.«414870_j66477503807887_1_alg».proof.Proof.Gen.ReferenceIdeal.Run
import proofs.«414870_j66477503807887_1_alg».proof.Proof.Gen.ReferenceIdeal.Read
-- ==== Proof.RefValue.lean ====
/-
  The reference's result at a row is the output in the reference's arrangement.

  The reference first builds the layer of all memberships, `layerOne[b, f, k] = memb x[b, f] μ[f, k] σ[f, k]`. For each
  feature `f` it cuts the table `layerOne[:, f, :]` (rows by memberships) and the word column `rules[:, f]`, wraps a
  negative word by adding `3`, and takes from the table, for every rule `r`, the column its word names: the factor
  `gterm … r f`. A word in `[0, 3)` is not negative, so the wrap returns it, and the clamped column it names is `mfIdx`
  of the word. The eight factors are multiplied into `1`, first feature first (`fire`); the products are summed over the
  rules into `0` and `ε` is added (`den`); every product is divided by that, the quotients are contracted with each
  consequent column, and the nine columns are summed into `0` (`outR`).
-/
import proofs.«414870_j66477503807887_1_alg».proof.Proof.Spec
import proofs.«414870_j66477503807887_1_alg».proof.Proof.LibGatherCol
import proofs.«414870_j66477503807887_1_alg».proof.Proof.RefStages
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.Anfis

/-- A word that reads as a non-negative signed integer is left alone by the wrap, which adds `3` to a negative word
    and returns any other word as it is. -/
theorem wrap_of_nonneg (w : BitVec 32) (h0 : 0 ≤ w.toInt) :
    Scalar.select (IntOp.cmpi .slt w 0#32) (IntOp.addi w 3#32) w = w := by
  have hc : IntOp.cmpi .slt w 0#32 = 0#1 := by
    unfold IntOp.cmpi
    have hlt : w.slt 0#32 = false := by
      simp only [BitVec.slt, BitVec.toInt_zero, decide_eq_false_iff_not, not_lt]
      exact h0
    show BitVec.ofBool (w.slt 0#32) = 0#1
    rw [hlt]; rfl
  rw [hc]
  exact select_zero _ _

/-- The column take of the program, read at row `b`, rule `r`: the table's entry in the column the start word names. -/
theorem gather_read (L : (⟨S8192x3, .f32⟩ : BufTy).Contents (Elt Ideal)) (W : (⟨S6561x1, .i32⟩ : BufTy).Contents (Elt Ideal))
    (b : Fin 8192) (r : Fin 6561) :
    Host.gather gather_S8192x3_S6561x1_S8192x6561_0_1_n_n_1_1_81921 L W (ix2 b r)
      = L (ix2 b (mfIdx (W (ix2 r (0 : Fin 1))))) :=
  GatherCol.gather_colTake_apply (N := 3) (by decide) gather_S8192x3_S6561x1_S8192x6561_0_1_n_n_1_1_81921
    rfl rfl rfl rfl rfl rfl rfl L W b r

/-- The first layer at row `b`, feature `f`, membership `k`. -/
theorem layerOne_apply (x0 : (⟨S8192x8, .f32⟩ : BufTy).Contents (Elt Ideal)) (x1 x2 : (⟨S8x3, .f32⟩ : BufTy).Contents (Elt Ideal))
    (b : Fin 8192) (f : Fin 8) (k : Fin 3) :
    val_main_v11 (F := Ideal) x0 x1 x2 (ix3 b f k) = memb (x0 (ix2 b f)) (x1 (ix2 f k)) (x2 (ix2 f k)) := by
  rw [val_main_v11_apply, val_main_v10_apply, val_main_v9_apply, val_main_cst_apply, val_main_v8_apply, val_main_v7_apply,
    val_main_v4_apply, val_main_v6_apply, val_main_v5_apply, val_main_v2_apply, val_main_v0_apply, val_main_v3_apply,
    val_main_v1_apply]
  have e0 : idx_main_v0 (idx_main_v2 (ix3 b f k)) = ix2 b f :=
    funext fun a => Fin.ext (by match a with | ⟨0, _⟩ => rfl | ⟨1, _⟩ => rfl)
  have e1 : idx_main_v1 (idx_main_v3 (ix3 b f k)) = ix2 f k :=
    funext fun a => Fin.ext (by match a with | ⟨0, _⟩ => rfl | ⟨1, _⟩ => rfl)
  have e5 : idx_main_v5 (idx_main_v6 (ix3 b f k)) = ix2 f k :=
    funext fun a => Fin.ext (by match a with | ⟨0, _⟩ => rfl | ⟨1, _⟩ => rfl)
  rw [e0, e1, e5]
  rfl

/-! ### The first feature (axis-1 offset 0) -/

/-- The first feature's slice of the first layer, as a table of rows by memberships. -/
theorem slice0_apply (x0 : (⟨S8192x8, .f32⟩ : BufTy).Contents (Elt Ideal)) (x1 x2 : (⟨S8x3, .f32⟩ : BufTy).Contents (Elt Ideal))
    (b : Fin 8192) (k : Fin 3) :
    val_main_v14 (F := Ideal) x0 x1 x2 (ix2 b k) = val_main_v11 (F := Ideal) x0 x1 x2 (ix3 b (0 : Fin 8) k) := by
  rw [val_main_v14_apply, val_main_v13_apply]
  refine congrArg (val_main_v11 (F := Ideal) x0 x1 x2) (funext fun a => Fin.ext ?_)
  have hb := b.isLt
  have hk := k.isLt
  match a with
  | ⟨0, _⟩ => show (b.val * 3 + k.val) / 3 = b.val; omega
  | ⟨1, _⟩ => rfl
  | ⟨2, _⟩ => show (b.val * 3 + k.val) % 3 = k.val; omega

/-- The first feature's start words: column 0 of the rule table, unchanged by the wrap since none is negative. -/
theorem word0_apply (x4 : (⟨S6561x8, .i32⟩ : BufTy).Contents (Elt Ideal)) (hr : InRange x4) (r : Fin 6561) :
    val_main_v22 (F := Ideal) x4 (ix2 r (0 : Fin 1)) = x4 (ix2 r (0 : Fin 8)) := by
  rw [val_main_v22_apply, val_main_v21_apply, val_main_v18_apply, val_main_v20_apply, val_main_v17_apply,
    val_main_c_apply, val_main_v19_apply, val_main_c_1_apply, val_main_v16_apply, val_main_v15_apply]
  have e : idx_main_v15 (idx_main_v16 (idx_main_v22 (ix2 r (0 : Fin 1)))) = ix2 r (0 : Fin 8) :=
    funext fun a => Fin.ext (by match a with | ⟨0, _⟩ => exact Nat.div_one _ | ⟨1, _⟩ => rfl)
  rw [e]
  exact wrap_of_nonneg _ (hr r (0 : Fin 8)).1

/-- The first feature's gathered factor is its factor of the firing strength. -/
theorem factor0_apply (x0 : (⟨S8192x8, .f32⟩ : BufTy).Contents (Elt Ideal)) (x1 x2 : (⟨S8x3, .f32⟩ : BufTy).Contents (Elt Ideal))
    (x4 : (⟨S6561x8, .i32⟩ : BufTy).Contents (Elt Ideal)) (hr : InRange x4) (b : Fin 8192) (r : Fin 6561) :
    val_main_v23 (F := Ideal) x0 x1 x2 x4 (ix2 b r) = gterm (fun f => x0 (ix2 b f)) x1 x2 x4 r (0 : Fin 8) := by
  unfold val_main_v23
  refine (gather_read _ _ b r).trans ?_
  rw [word0_apply x4 hr r, slice0_apply, layerOne_apply]
  rfl

/-! ### The second feature (axis-1 offset 1) -/

/-- The second feature's slice of the first layer, as a table of rows by memberships. -/
theorem slice1_apply (x0 : (⟨S8192x8, .f32⟩ : BufTy).Contents (Elt Ideal)) (x1 x2 : (⟨S8x3, .f32⟩ : BufTy).Contents (Elt Ideal))
    (b : Fin 8192) (k : Fin 3) :
    val_main_v26 (F := Ideal) x0 x1 x2 (ix2 b k) = val_main_v11 (F := Ideal) x0 x1 x2 (ix3 b (1 : Fin 8) k) := by
  rw [val_main_v26_apply, val_main_v25_apply]
  refine congrArg (val_main_v11 (F := Ideal) x0 x1 x2) (funext fun a => Fin.ext ?_)
  have hb := b.isLt
  have hk := k.isLt
  match a with
  | ⟨0, _⟩ => show (b.val * 3 + k.val) / 3 = b.val; omega
  | ⟨1, _⟩ => rfl
  | ⟨2, _⟩ => show (b.val * 3 + k.val) % 3 = k.val; omega

/-- The second feature's start words: column 1 of the rule table, unchanged by the wrap since none is negative. -/
theorem word1_apply (x4 : (⟨S6561x8, .i32⟩ : BufTy).Contents (Elt Ideal)) (hr : InRange x4) (r : Fin 6561) :
    val_main_v34 (F := Ideal) x4 (ix2 r (0 : Fin 1)) = x4 (ix2 r (1 : Fin 8)) := by
  rw [val_main_v34_apply, val_main_v33_apply, val_main_v30_apply, val_main_v32_apply, val_main_v29_apply,
    val_main_c_2_apply, val_main_v31_apply, val_main_c_3_apply, val_main_v28_apply, val_main_v27_apply]
  have e : idx_main_v27 (idx_main_v28 (idx_main_v34 (ix2 r (0 : Fin 1)))) = ix2 r (1 : Fin 8) :=
    funext fun a => Fin.ext (by match a with | ⟨0, _⟩ => exact Nat.div_one _ | ⟨1, _⟩ => rfl)
  rw [e]
  exact wrap_of_nonneg _ (hr r (1 : Fin 8)).1

/-- The second feature's gathered factor is its factor of the firing strength. -/
theorem factor1_apply (x0 : (⟨S8192x8, .f32⟩ : BufTy).Contents (Elt Ideal)) (x1 x2 : (⟨S8x3, .f32⟩ : BufTy).Contents (Elt Ideal))
    (x4 : (⟨S6561x8, .i32⟩ : BufTy).Contents (Elt Ideal)) (hr : InRange x4) (b : Fin 8192) (r : Fin 6561) :
    val_main_v35 (F := Ideal) x0 x1 x2 x4 (ix2 b r) = gterm (fun f => x0 (ix2 b f)) x1 x2 x4 r (1 : Fin 8) := by
  unfold val_main_v35
  refine (gather_read _ _ b r).trans ?_
  rw [word1_apply x4 hr r, slice1_apply, layerOne_apply]
  rfl

/-! ### The third feature (axis-1 offset 2) -/

/-- The third feature's slice of the first layer, as a table of rows by memberships. -/
theorem slice2_apply (x0 : (⟨S8192x8, .f32⟩ : BufTy).Contents (Elt Ideal)) (x1 x2 : (⟨S8x3, .f32⟩ : BufTy).Contents (Elt Ideal))
    (b : Fin 8192) (k : Fin 3) :
    val_main_v38 (F := Ideal) x0 x1 x2 (ix2 b k) = val_main_v11 (F := Ideal) x0 x1 x2 (ix3 b (2 : Fin 8) k) := by
  rw [val_main_v38_apply, val_main_v37_apply]
  refine congrArg (val_main_v11 (F := Ideal) x0 x1 x2) (funext fun a => Fin.ext ?_)
  have hb := b.isLt
  have hk := k.isLt
  match a with
  | ⟨0, _⟩ => show (b.val * 3 + k.val) / 3 = b.val; omega
  | ⟨1, _⟩ => rfl
  | ⟨2, _⟩ => show (b.val * 3 + k.val) % 3 = k.val; omega

/-- The third feature's start words: column 2 of the rule table, unchanged by the wrap since none is negative. -/
theorem word2_apply (x4 : (⟨S6561x8, .i32⟩ : BufTy).Contents (Elt Ideal)) (hr : InRange x4) (r : Fin 6561) :
    val_main_v46 (F := Ideal) x4 (ix2 r (0 : Fin 1)) = x4 (ix2 r (2 : Fin 8)) := by
  rw [val_main_v46_apply, val_main_v45_apply, val_main_v42_apply, val_main_v44_apply, val_main_v41_apply,
    val_main_c_4_apply, val_main_v43_apply, val_main_c_5_apply, val_main_v40_apply, val_main_v39_apply]
  have e : idx_main_v39 (idx_main_v40 (idx_main_v46 (ix2 r (0 : Fin 1)))) = ix2 r (2 : Fin 8) :=
    funext fun a => Fin.ext (by match a with | ⟨0, _⟩ => exact Nat.div_one _ | ⟨1, _⟩ => rfl)
  rw [e]
  exact wrap_of_nonneg _ (hr r (2 : Fin 8)).1

/-- The third feature's gathered factor is its factor of the firing strength. -/
theorem factor2_apply (x0 : (⟨S8192x8, .f32⟩ : BufTy).Contents (Elt Ideal)) (x1 x2 : (⟨S8x3, .f32⟩ : BufTy).Contents (Elt Ideal))
    (x4 : (⟨S6561x8, .i32⟩ : BufTy).Contents (Elt Ideal)) (hr : InRange x4) (b : Fin 8192) (r : Fin 6561) :
    val_main_v47 (F := Ideal) x0 x1 x2 x4 (ix2 b r) = gterm (fun f => x0 (ix2 b f)) x1 x2 x4 r (2 : Fin 8) := by
  unfold val_main_v47
  refine (gather_read _ _ b r).trans ?_
  rw [word2_apply x4 hr r, slice2_apply, layerOne_apply]
  rfl

/-! ### The fourth feature (axis-1 offset 3) -/

/-- The fourth feature's slice of the first layer, as a table of rows by memberships. -/
theorem slice3_apply (x0 : (⟨S8192x8, .f32⟩ : BufTy).Contents (Elt Ideal)) (x1 x2 : (⟨S8x3, .f32⟩ : BufTy).Contents (Elt Ideal))
    (b : Fin 8192) (k : Fin 3) :
    val_main_v50 (F := Ideal) x0 x1 x2 (ix2 b k) = val_main_v11 (F := Ideal) x0 x1 x2 (ix3 b (3 : Fin 8) k) := by
  rw [val_main_v50_apply, val_main_v49_apply]
  refine congrArg (val_main_v11 (F := Ideal) x0 x1 x2) (funext fun a => Fin.ext ?_)
  have hb := b.isLt
  have hk := k.isLt
  match a with
  | ⟨0, _⟩ => show (b.val * 3 + k.val) / 3 = b.val; omega
  | ⟨1, _⟩ => rfl
  | ⟨2, _⟩ => show (b.val * 3 + k.val) % 3 = k.val; omega

/-- The fourth feature's start words: column 3 of the rule table, unchanged by the wrap since none is negative. -/
theorem word3_apply (x4 : (⟨S6561x8, .i32⟩ : BufTy).Contents (Elt Ideal)) (hr : InRange x4) (r : Fin 6561) :
    val_main_v58 (F := Ideal) x4 (ix2 r (0 : Fin 1)) = x4 (ix2 r (3 : Fin 8)) := by
  rw [val_main_v58_apply, val_main_v57_apply, val_main_v54_apply, val_main_v56_apply, val_main_v53_apply,
    val_main_c_6_apply, val_main_v55_apply, val_main_c_7_apply, val_main_v52_apply, val_main_v51_apply]
  have e : idx_main_v51 (idx_main_v52 (idx_main_v58 (ix2 r (0 : Fin 1)))) = ix2 r (3 : Fin 8) :=
    funext fun a => Fin.ext (by match a with | ⟨0, _⟩ => exact Nat.div_one _ | ⟨1, _⟩ => rfl)
  rw [e]
  exact wrap_of_nonneg _ (hr r (3 : Fin 8)).1

/-- The fourth feature's gathered factor is its factor of the firing strength. -/
theorem factor3_apply (x0 : (⟨S8192x8, .f32⟩ : BufTy).Contents (Elt Ideal)) (x1 x2 : (⟨S8x3, .f32⟩ : BufTy).Contents (Elt Ideal))
    (x4 : (⟨S6561x8, .i32⟩ : BufTy).Contents (Elt Ideal)) (hr : InRange x4) (b : Fin 8192) (r : Fin 6561) :
    val_main_v59 (F := Ideal) x0 x1 x2 x4 (ix2 b r) = gterm (fun f => x0 (ix2 b f)) x1 x2 x4 r (3 : Fin 8) := by
  unfold val_main_v59
  refine (gather_read _ _ b r).trans ?_
  rw [word3_apply x4 hr r, slice3_apply, layerOne_apply]
  rfl

/-! ### The fifth feature (axis-1 offset 4) -/

/-- The fifth feature's slice of the first layer, as a table of rows by memberships. -/
theorem slice4_apply (x0 : (⟨S8192x8, .f32⟩ : BufTy).Contents (Elt Ideal)) (x1 x2 : (⟨S8x3, .f32⟩ : BufTy).Contents (Elt Ideal))
    (b : Fin 8192) (k : Fin 3) :
    val_main_v62 (F := Ideal) x0 x1 x2 (ix2 b k) = val_main_v11 (F := Ideal) x0 x1 x2 (ix3 b (4 : Fin 8) k) := by
  rw [val_main_v62_apply, val_main_v61_apply]
  refine congrArg (val_main_v11 (F := Ideal) x0 x1 x2) (funext fun a => Fin.ext ?_)
  have hb := b.isLt
  have hk := k.isLt
  match a with
  | ⟨0, _⟩ => show (b.val * 3 + k.val) / 3 = b.val; omega
  | ⟨1, _⟩ => rfl
  | ⟨2, _⟩ => show (b.val * 3 + k.val) % 3 = k.val; omega

/-- The fifth feature's start words: column 4 of the rule table, unchanged by the wrap since none is negative. -/
theorem word4_apply (x4 : (⟨S6561x8, .i32⟩ : BufTy).Contents (Elt Ideal)) (hr : InRange x4) (r : Fin 6561) :
    val_main_v70 (F := Ideal) x4 (ix2 r (0 : Fin 1)) = x4 (ix2 r (4 : Fin 8)) := by
  rw [val_main_v70_apply, val_main_v69_apply, val_main_v66_apply, val_main_v68_apply, val_main_v65_apply,
    val_main_c_8_apply, val_main_v67_apply, val_main_c_9_apply, val_main_v64_apply, val_main_v63_apply]
  have e : idx_main_v63 (idx_main_v64 (idx_main_v70 (ix2 r (0 : Fin 1)))) = ix2 r (4 : Fin 8) :=
    funext fun a => Fin.ext (by match a with | ⟨0, _⟩ => exact Nat.div_one _ | ⟨1, _⟩ => rfl)
  rw [e]
  exact wrap_of_nonneg _ (hr r (4 : Fin 8)).1

/-- The fifth feature's gathered factor is its factor of the firing strength. -/
theorem factor4_apply (x0 : (⟨S8192x8, .f32⟩ : BufTy).Contents (Elt Ideal)) (x1 x2 : (⟨S8x3, .f32⟩ : BufTy).Contents (Elt Ideal))
    (x4 : (⟨S6561x8, .i32⟩ : BufTy).Contents (Elt Ideal)) (hr : InRange x4) (b : Fin 8192) (r : Fin 6561) :
    val_main_v71 (F := Ideal) x0 x1 x2 x4 (ix2 b r) = gterm (fun f => x0 (ix2 b f)) x1 x2 x4 r (4 : Fin 8) := by
  unfold val_main_v71
  refine (gather_read _ _ b r).trans ?_
  rw [word4_apply x4 hr r, slice4_apply, layerOne_apply]
  rfl

/-! ### The sixth feature (axis-1 offset 5) -/

/-- The sixth feature's slice of the first layer, as a table of rows by memberships. -/
theorem slice5_apply (x0 : (⟨S8192x8, .f32⟩ : BufTy).Contents (Elt Ideal)) (x1 x2 : (⟨S8x3, .f32⟩ : BufTy).Contents (Elt Ideal))
    (b : Fin 8192) (k : Fin 3) :
    val_main_v74 (F := Ideal) x0 x1 x2 (ix2 b k) = val_main_v11 (F := Ideal) x0 x1 x2 (ix3 b (5 : Fin 8) k) := by
  rw [val_main_v74_apply, val_main_v73_apply]
  refine congrArg (val_main_v11 (F := Ideal) x0 x1 x2) (funext fun a => Fin.ext ?_)
  have hb := b.isLt
  have hk := k.isLt
  match a with
  | ⟨0, _⟩ => show (b.val * 3 + k.val) / 3 = b.val; omega
  | ⟨1, _⟩ => rfl
  | ⟨2, _⟩ => show (b.val * 3 + k.val) % 3 = k.val; omega

/-- The sixth feature's start words: column 5 of the rule table, unchanged by the wrap since none is negative. -/
theorem word5_apply (x4 : (⟨S6561x8, .i32⟩ : BufTy).Contents (Elt Ideal)) (hr : InRange x4) (r : Fin 6561) :
    val_main_v82 (F := Ideal) x4 (ix2 r (0 : Fin 1)) = x4 (ix2 r (5 : Fin 8)) := by
  rw [val_main_v82_apply, val_main_v81_apply, val_main_v78_apply, val_main_v80_apply, val_main_v77_apply,
    val_main_c_10_apply, val_main_v79_apply, val_main_c_11_apply, val_main_v76_apply, val_main_v75_apply]
  have e : idx_main_v75 (idx_main_v76 (idx_main_v82 (ix2 r (0 : Fin 1)))) = ix2 r (5 : Fin 8) :=
    funext fun a => Fin.ext (by match a with | ⟨0, _⟩ => exact Nat.div_one _ | ⟨1, _⟩ => rfl)
  rw [e]
  exact wrap_of_nonneg _ (hr r (5 : Fin 8)).1

/-- The sixth feature's gathered factor is its factor of the firing strength. -/
theorem factor5_apply (x0 : (⟨S8192x8, .f32⟩ : BufTy).Contents (Elt Ideal)) (x1 x2 : (⟨S8x3, .f32⟩ : BufTy).Contents (Elt Ideal))
    (x4 : (⟨S6561x8, .i32⟩ : BufTy).Contents (Elt Ideal)) (hr : InRange x4) (b : Fin 8192) (r : Fin 6561) :
    val_main_v83 (F := Ideal) x0 x1 x2 x4 (ix2 b r) = gterm (fun f => x0 (ix2 b f)) x1 x2 x4 r (5 : Fin 8) := by
  unfold val_main_v83
  refine (gather_read _ _ b r).trans ?_
  rw [word5_apply x4 hr r, slice5_apply, layerOne_apply]
  rfl

/-! ### The seventh feature (axis-1 offset 6) -/

/-- The seventh feature's slice of the first layer, as a table of rows by memberships. -/
theorem slice6_apply (x0 : (⟨S8192x8, .f32⟩ : BufTy).Contents (Elt Ideal)) (x1 x2 : (⟨S8x3, .f32⟩ : BufTy).Contents (Elt Ideal))
    (b : Fin 8192) (k : Fin 3) :
    val_main_v86 (F := Ideal) x0 x1 x2 (ix2 b k) = val_main_v11 (F := Ideal) x0 x1 x2 (ix3 b (6 : Fin 8) k) := by
  rw [val_main_v86_apply, val_main_v85_apply]
  refine congrArg (val_main_v11 (F := Ideal) x0 x1 x2) (funext fun a => Fin.ext ?_)
  have hb := b.isLt
  have hk := k.isLt
  match a with
  | ⟨0, _⟩ => show (b.val * 3 + k.val) / 3 = b.val; omega
  | ⟨1, _⟩ => rfl
  | ⟨2, _⟩ => show (b.val * 3 + k.val) % 3 = k.val; omega

/-- The seventh feature's start words: column 6 of the rule table, unchanged by the wrap since none is negative. -/
theorem word6_apply (x4 : (⟨S6561x8, .i32⟩ : BufTy).Contents (Elt Ideal)) (hr : InRange x4) (r : Fin 6561) :
    val_main_v94 (F := Ideal) x4 (ix2 r (0 : Fin 1)) = x4 (ix2 r (6 : Fin 8)) := by
  rw [val_main_v94_apply, val_main_v93_apply, val_main_v90_apply, val_main_v92_apply, val_main_v89_apply,
    val_main_c_12_apply, val_main_v91_apply, val_main_c_13_apply, val_main_v88_apply, val_main_v87_apply]
  have e : idx_main_v87 (idx_main_v88 (idx_main_v94 (ix2 r (0 : Fin 1)))) = ix2 r (6 : Fin 8) :=
    funext fun a => Fin.ext (by match a with | ⟨0, _⟩ => exact Nat.div_one _ | ⟨1, _⟩ => rfl)
  rw [e]
  exact wrap_of_nonneg _ (hr r (6 : Fin 8)).1

/-- The seventh feature's gathered factor is its factor of the firing strength. -/
theorem factor6_apply (x0 : (⟨S8192x8, .f32⟩ : BufTy).Contents (Elt Ideal)) (x1 x2 : (⟨S8x3, .f32⟩ : BufTy).Contents (Elt Ideal))
    (x4 : (⟨S6561x8, .i32⟩ : BufTy).Contents (Elt Ideal)) (hr : InRange x4) (b : Fin 8192) (r : Fin 6561) :
    val_main_v95 (F := Ideal) x0 x1 x2 x4 (ix2 b r) = gterm (fun f => x0 (ix2 b f)) x1 x2 x4 r (6 : Fin 8) := by
  unfold val_main_v95
  refine (gather_read _ _ b r).trans ?_
  rw [word6_apply x4 hr r, slice6_apply, layerOne_apply]
  rfl

/-! ### The eighth feature (axis-1 offset 7) -/

/-- The eighth feature's slice of the first layer, as a table of rows by memberships. -/
theorem slice7_apply (x0 : (⟨S8192x8, .f32⟩ : BufTy).Contents (Elt Ideal)) (x1 x2 : (⟨S8x3, .f32⟩ : BufTy).Contents (Elt Ideal))
    (b : Fin 8192) (k : Fin 3) :
    val_main_v98 (F := Ideal) x0 x1 x2 (ix2 b k) = val_main_v11 (F := Ideal) x0 x1 x2 (ix3 b (7 : Fin 8) k) := by
  rw [val_main_v98_apply, val_main_v97_apply]
  refine congrArg (val_main_v11 (F := Ideal) x0 x1 x2) (funext fun a => Fin.ext ?_)
  have hb := b.isLt
  have hk := k.isLt
  match a with
  | ⟨0, _⟩ => show (b.val * 3 + k.val) / 3 = b.val; omega
  | ⟨1, _⟩ => rfl
  | ⟨2, _⟩ => show (b.val * 3 + k.val) % 3 = k.val; omega

/-- The eighth feature's start words: column 7 of the rule table, unchanged by the wrap since none is negative. -/
theorem word7_apply (x4 : (⟨S6561x8, .i32⟩ : BufTy).Contents (Elt Ideal)) (hr : InRange x4) (r : Fin 6561) :
    val_main_v106 (F := Ideal) x4 (ix2 r (0 : Fin 1)) = x4 (ix2 r (7 : Fin 8)) := by
  rw [val_main_v106_apply, val_main_v105_apply, val_main_v102_apply, val_main_v104_apply, val_main_v101_apply,
    val_main_c_14_apply, val_main_v103_apply, val_main_c_15_apply, val_main_v100_apply, val_main_v99_apply]
  have e : idx_main_v99 (idx_main_v100 (idx_main_v106 (ix2 r (0 : Fin 1)))) = ix2 r (7 : Fin 8) :=
    funext fun a => Fin.ext (by match a with | ⟨0, _⟩ => exact Nat.div_one _ | ⟨1, _⟩ => rfl)
  rw [e]
  exact wrap_of_nonneg _ (hr r (7 : Fin 8)).1

/-- The eighth feature's gathered factor is its factor of the firing strength. -/
theorem factor7_apply (x0 : (⟨S8192x8, .f32⟩ : BufTy).Contents (Elt Ideal)) (x1 x2 : (⟨S8x3, .f32⟩ : BufTy).Contents (Elt Ideal))
    (x4 : (⟨S6561x8, .i32⟩ : BufTy).Contents (Elt Ideal)) (hr : InRange x4) (b : Fin 8192) (r : Fin 6561) :
    val_main_v107 (F := Ideal) x0 x1 x2 x4 (ix2 b r) = gterm (fun f => x0 (ix2 b f)) x1 x2 x4 r (7 : Fin 8) := by
  unfold val_main_v107
  refine (gather_read _ _ b r).trans ?_
  rw [word7_apply x4 hr r, slice7_apply, layerOne_apply]
  rfl

/-! ### The product, the normaliser and the result -/

/-- The running product after the eighth feature is the rule's firing strength. -/
theorem fire_apply (x0 : (⟨S8192x8, .f32⟩ : BufTy).Contents (Elt Ideal)) (x1 x2 : (⟨S8x3, .f32⟩ : BufTy).Contents (Elt Ideal))
    (x4 : (⟨S6561x8, .i32⟩ : BufTy).Contents (Elt Ideal)) (hr : InRange x4) (b : Fin 8192) (r : Fin 6561) :
    val_main_v108 (F := Ideal) x0 x1 x2 x4 (ix2 b r) = fire (fun f => x0 (ix2 b f)) x1 x2 x4 r := by
  rw [val_main_v108_apply, val_main_v96_apply, val_main_v84_apply, val_main_v72_apply, val_main_v60_apply,
    val_main_v48_apply, val_main_v36_apply, val_main_v24_apply,
    val_main_v12_apply, val_main_cst_0_apply,
    factor0_apply x0 x1 x2 x4 hr b r,
    factor1_apply x0 x1 x2 x4 hr b r,
    factor2_apply x0 x1 x2 x4 hr b r,
    factor3_apply x0 x1 x2 x4 hr b r,
    factor4_apply x0 x1 x2 x4 hr b r,
    factor5_apply x0 x1 x2 x4 hr b r,
    factor6_apply x0 x1 x2 x4 hr b r,
    factor7_apply x0 x1 x2 x4 hr b r]
  rfl

/-- The broadcast normaliser at any rule column of row `b`: the firing strengths summed into `0`, plus `ε`. -/
theorem den_apply (x0 : (⟨S8192x8, .f32⟩ : BufTy).Contents (Elt Ideal)) (x1 x2 : (⟨S8x3, .f32⟩ : BufTy).Contents (Elt Ideal))
    (x4 : (⟨S6561x8, .i32⟩ : BufTy).Contents (Elt Ideal)) (hr : InRange x4) (b : Fin 8192) (r : Fin 6561) :
    val_main_v113 (F := Ideal) x0 x1 x2 x4 (ix2 b r) = den (fun f => x0 (ix2 b f)) x1 x2 x4 := by
  rw [val_main_v113_apply, val_main_v112_apply, val_main_v110_apply, val_main_v109_apply, val_main_v111_apply,
    val_main_cst_17_apply, val_main_cst_16_apply]
  unfold den
  refine congrArg₂ (· + ·) (congrArg₂ (· + ·) rfl (Finset.sum_congr rfl fun k _ => ?_)) rfl
  have e : idx_main_v109 (idx_main_v110 (idx_main_v113 (ix2 b r))) k = ix2 b k :=
    funext fun a => Fin.ext (by match a with | ⟨0, _⟩ => rfl | ⟨1, _⟩ => rfl)
  rw [e]
  exact fire_apply x0 x1 x2 x4 hr b k

/-- Entry `b` of the reference's result, when every rule word names a membership function. -/
theorem result_apply (x0 : (⟨S8192x8, .f32⟩ : BufTy).Contents (Elt Ideal)) (x1 x2 : (⟨S8x3, .f32⟩ : BufTy).Contents (Elt Ideal))
    (x3 : (⟨S6561x9, .f32⟩ : BufTy).Contents (Elt Ideal)) (x4 : (⟨S6561x8, .i32⟩ : BufTy).Contents (Elt Ideal))
    (hr : InRange x4) (b : Fin 8192) :
    val_main_v116 (F := Ideal) x0 x1 x2 x3 x4 (ix1 b) = outR (fun f => x0 (ix2 b f)) x1 x2 x4 x3 := by
  rw [val_main_v116_apply, val_main_cst_18_apply]
  unfold outR
  refine congrArg₂ (· + ·) rfl (Finset.sum_congr rfl fun j _ => ?_)
  rw [val_main_v115_apply]
  refine Finset.sum_congr rfl fun r _ => ?_
  have el : lidx_main_v115 (idx_main_v116 (ix1 b) j) r = ix2 b r :=
    funext fun a => Fin.ext (by match a with | ⟨0, _⟩ => rfl | ⟨1, _⟩ => rfl)
  have er : ridx_main_v115 (idx_main_v116 (ix1 b) j) r = ix2 r j :=
    funext fun a => Fin.ext (by match a with | ⟨0, _⟩ => rfl | ⟨1, _⟩ => rfl)
  rw [el, er, val_main_v114_apply, fire_apply x0 x1 x2 x4 hr b r, den_apply x0 x1 x2 x4 hr b r]
  rfl

end Cert.ReferenceIdeal.RefValue

end
-- ==== Proof.lean ====
/-
  The five claims of this certificate.

  Both programs compute, for each of 8192 feature rows, a firing-strength-weighted average of rule consequents: eight
  features with three Gaussian membership functions each, 6561 rules naming one membership function per feature, the
  strength of a rule the product of the named memberships. The reference gathers the named membership per feature,
  normalises every strength by the strengths' sum plus ε, contracts with the consequents and sums the nine columns. The
  kernel turns the rule words into a 0/1 table (one row per feature and membership, one column per rule, padded with
  zero columns), forms each feature's factor as the table-weighted sum of its three memberships, and divides the
  strengths' contraction with the consequents' row sums by the strengths' sum plus ε, once.

  The two agree when every rule word is 0, 1 or 2 — the precondition's last conjunct: outside that range the table
  has an all-zero column where the reference's gather clamps — and when the consequents are real numbers, which is what
  lets the one division be moved inside the two sums. The memberships are real numbers in [0, 1] whatever the features,
  centres and widths are, so the normaliser is a positive real with no further hypothesis.

  `Cert.Anfis` (Proof/Spec.lean) states the two arrangements; Proof/SpecAlgebra.lean proves them equal;
  Proof/RefValue.lean reads the reference's result, Proof/KernelBody.lean and Proof/KernelQuot.lean one grid point's
  output block, Proof/KernelTable.lean the table and the row sums the host lines build, Proof/KernelValue.lean the
  kernel's result array; Proof/PreDecode.lean reads the precondition. The idealization rewrote nothing, so `preserves`
  is trivial.
-/
import proofs.«414870_j66477503807887_1_alg».proof.Defs
import proofs.«414870_j66477503807887_1_alg».proof.Proof.Gen.Kernel
import proofs.«414870_j66477503807887_1_alg».proof.Proof.Gen.Kernel.Skeleton
import proofs.«414870_j66477503807887_1_alg».proof.Proof.Gen.Kernel.Launch
import proofs.«414870_j66477503807887_1_alg».proof.Proof.Gen.Kernel.Points
import proofs.«414870_j66477503807887_1_alg».proof.Proof.Gen.Kernel.Frame
import proofs.«414870_j66477503807887_1_alg».proof.Proof.Gen.KernelIdeal
import proofs.«414870_j66477503807887_1_alg».proof.Proof.Gen.KernelIdeal.Skeleton
import proofs.«414870_j66477503807887_1_alg».proof.Proof.Gen.KernelIdeal.Launch
import proofs.«414870_j66477503807887_1_alg».proof.Proof.Gen.KernelIdeal.Points
import proofs.«414870_j66477503807887_1_alg».proof.Proof.Gen.KernelIdeal.Frame
import proofs.«414870_j66477503807887_1_alg».proof.Proof.Gen.ReferenceIdeal
import proofs.«414870_j66477503807887_1_alg».proof.Proof.Gen.ReferenceIdeal.Run
import proofs.«414870_j66477503807887_1_alg».proof.Proof.Gen.ReferenceIdeal.Read
import proofs.«414870_j66477503807887_1_alg».proof.Proof.Gen.Pre_finite_inputs
import proofs.«414870_j66477503807887_1_alg».proof.Proof.Spec
import proofs.«414870_j66477503807887_1_alg».proof.Proof.SpecAlgebra
import proofs.«414870_j66477503807887_1_alg».proof.Proof.PreDecode
import proofs.«414870_j66477503807887_1_alg».proof.Proof.KernelTable
import proofs.«414870_j66477503807887_1_alg».proof.Proof.KernelValue
import proofs.«414870_j66477503807887_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx Cert.Anfis

/-- The word-level kernel runs and leaves its arguments as they were: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a host program: its generated run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Row by row the kernel's quotient over the padded one-hot table is the reference's normalised contraction. -/
theorem algebraic : Cert.algebraic_KernelIdeal_ReferenceIdeal := by
  intro m ρ m' ρ' hpre hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  have hp := hpre c
  have hreal := Cert.Pre_finite_inputs.Decode.cons_real _ _ _ _ _ hp
  have hrange := Cert.Pre_finite_inputs.Decode.rules_range _ _ _ _ _ hp
  rw [Cert.ReferenceIdeal.Read.val_main_v116_eq, h0, h1, h2, h3, h4]
  funext i
  obtain ⟨b, rfl⟩ : ∃ b : Fin 8192, i = ix1 b := ⟨i 0, eq_ix1 i⟩
  show _ = Cert.KernelIdeal.KValue.result m c (ix1 b)
  rw [Cert.ReferenceIdeal.RefValue.result_apply _ _ _ _ _ hrange b, Cert.KernelIdeal.KValue.result_apply m c b,
    blockOut_eq_outK _ _ _ _ _ _ _ (Cert.KernelIdeal.Table.table_onehot m c hrange) (Cert.KernelIdeal.Table.csum_rows m c),
    outK_eq_outR _ _ _ _ _ hreal]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
